-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg11 : IVec S1600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S1600000 32 := broadcastInDim S1600000 ![] bcast_S_S1600000 main_c_20
  let main_v55 : IVec S1600000 1 := cmpi .sge main_arg11 main_v54
  let main_c_21 : IVec S_ 32 := constantI S_ 32 100000#32
  let main_v56 : IVec S1600000 32 := broadcastInDim S1600000 ![] bcast_S_S1600000 main_c_21
  let main_v57 : IVec S1600000 1 := cmpi .slt main_arg11 main_v56
  let main_v58 : IVec S1600000 1 := andi main_v55 main_v57
  let main_c_22 : IVec S_ 1 := constantI S_ 1 1#1
  let main_v59 : IVec S_ 1 := (fun x v => Host.reduce IntOp.andi x v reducesTo_S1600000_S_d0 h_S_) main_v58 main_c_22
  let main_v60 : IVec S_ 1 := andi main_v53 main_v59
  main_v60

def fn_part2 {F : FTy → Type} [FloatOps F] (main_arg7 : FVec F S128x128 .f32) (main_arg8 : FVec F S128 .f32) (main_arg9 : FVec F S128x64 .f32) (main_arg10 : FVec F S64 .f32) (main_arg11 : IVec S1600000 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S64x128 .f32) (main_arg2 : FVec F S64x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : IVec S1600000 32) (main_arg12 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 91
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x64, .f32⟩
  | .hbm, ⟨44, _⟩ => ⟨S1600000x64, .i1⟩
  | .hbm, ⟨45, _⟩ => ⟨S_, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1, .i32⟩
  | .hbm, ⟨66, _⟩ => ⟨S_, .i32⟩
  | .hbm, ⟨67, _⟩ => ⟨S1600000x1, .i32⟩
  | .hbm, ⟨68, _⟩ => ⟨S1600000x1, .i1⟩
  | .hbm, ⟨69, _⟩ => ⟨S1x1, .i32⟩
  | .hbm, ⟨70, _⟩ => ⟨S1600000x1, .i32⟩
  | .hbm, ⟨71, _⟩ => ⟨S1600000x1, .i1⟩
  | .hbm, ⟨72, _⟩ => ⟨S1600000x1, .i1⟩
  | .hbm, ⟨73, _⟩ => ⟨S_, .i1⟩
  | .hbm, ⟨74, _⟩ => ⟨S1600000, .i1⟩
  | .hbm, ⟨75, _⟩ => ⟨S1600000x128, .f32⟩
  | .hbm, ⟨76, _⟩ => ⟨S1600000x128, .i1⟩
  | .hbm, ⟨77, _⟩ => ⟨S_, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S1x128, .f32⟩
  | .hbm, ⟨89, _⟩ => ⟨S1x64, .f32⟩
  | .hbm, ⟨90, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v8 : Ref sig .tc := ⟨.hbm, 47, rfl⟩
abbrev main_cst_3 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v17 : Ref sig .tc := ⟨.hbm, 79, rfl⟩
abbrev main_cst_4 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The dense layers of the network, as whole-array functions over the extended reals.

  A matrix product read at an entry is the sum over the contraction position of the products of a row
  of the left factor and a column of the right factor. The three layer shapes of the network are built
  from it: a graph-convolution layer  max((x W_self)[p,q] + (h W_neigh)[p,q] + b[q], 0),  a dense layer
  with the same cut-off at zero, and a plain dense layer. Each is stated at any extents, so that the same
  function describes a block of rows and the whole array; a row of the result depends only on the same row
  of the row-indexed operands.
-/
import Idealize.ShloMosaic.Lib.ValueIdx
import Idealize.ShloMosaic.PureOps.Ideal.Laws

noncomputable section

namespace Cert.Spec

open Idealize.ShloMosaic Idealize.ShloMosaic.ValueIdx

/-- An [N, C] array of extended reals. -/
abbrev Mat (N C : Nat) := FVec Ideal ⟨2, ![N, C]⟩ .f32

/-- Row p of x against column q of w. -/
def rowCol {N K C : Nat} (x : Mat N K) (w : Mat K C) (p : Fin N) (q : Fin C) : EReal :=
  ∑ k : Fin K, x (ix2 p k) * w (ix2 k q)

/-- x W + b, the bias a single row added to every row. -/
def dense {N K C : Nat} (x : Mat N K) (w : Mat K C) (b : Mat 1 C) : Mat N C := fun y =>
  rowCol x w ⟨(y 0).val, (y 0).isLt⟩ ⟨(y 1).val, (y 1).isLt⟩ + b (ix2 (0 : Fin 1) ⟨(y 1).val, (y 1).isLt⟩)

/-- max(x W + b, 0). -/
def denseRelu {N K C : Nat} (x : Mat N K) (w : Mat K C) (b : Mat 1 C) : Mat N C := fun y =>
  max (dense x w b y) 0

/-- max((x W_self + h W_neigh) + b, 0): the graph-convolution layer, h the aggregated neighbour features. -/
def sage {N K C : Nat} (x h : Mat N K) (ws wn : Mat K C) (b : Mat 1 C) : Mat N C := fun y =>
  max ((rowCol x ws ⟨(y 0).val, (y 0).isLt⟩ ⟨(y 1).val, (y 1).isLt⟩
        + rowCol h wn ⟨(y 0).val, (y 0).isLt⟩ ⟨(y 1).val, (y 1).isLt⟩)
      + b (ix2 (0 : Fin 1) ⟨(y 1).val, (y 1).isLt⟩)) 0

theorem dense_apply {N K C : Nat} (x : Mat N K) (w : Mat K C) (b : Mat 1 C) (p : Fin N) (q : Fin C) :
    dense x w b (ix2 p q) = rowCol x w p q + b (ix2 (0 : Fin 1) q) := rfl

theorem denseRelu_apply {N K C : Nat} (x : Mat N K) (w : Mat K C) (b : Mat 1 C) (p : Fin N) (q : Fin C) :
    denseRelu x w b (ix2 p q) = max (rowCol x w p q + b (ix2 (0 : Fin 1) q)) 0 := rfl

theorem sage_apply {N K C : Nat} (x h : Mat N K) (ws wn : Mat K C) (b : Mat 1 C) (p : Fin N) (q : Fin C) :
    sage x h ws wn b (ix2 p q) = max ((rowCol x ws p q + rowCol h wn p q) + b (ix2 (0 : Fin 1) q)) 0 := rfl

/-- Dividing by a nonzero extended real is multiplying by its reciprocal: a mean taken as  agg · (1 / d)
    is the mean taken as  agg / d.  The divisor here is a maximum against 1, which is never 0. -/
theorem mul_one_div_max (a e : EReal) :
    a * Ideal.div 1 (max e 1) = Ideal.div a (max e 1) := by
  have hd : max e 1 ≠ 0 :=
    (lt_of_lt_of_le (zero_lt_one : (0 : EReal) < 1) (le_max_right e 1)).ne'
  unfold Ideal.div
  rw [if_neg hd, if_neg hd, one_mul]

/-- The single-precision pattern of 1.0 denotes the extended real 1. -/
theorem ofBits_one : Ideal.ofBits .f32 0x3F800000#32 = (1 : EReal) := by
  simp [Ideal.ofBits, Ideal.ieee]
  rw [← EReal.coe_mul]
  norm_num

end Cert.Spec

end
-- ==== Proof.Net.lean ====
/-
  The network as one function of its thirteen argument arrays, over the extended reals.

  The degree of a node is the scatter-add of ones at the destination indices; its reciprocal after the
  cut-off  1 / max(deg, 1)  scales the scatter-add of the gathered source rows into the mean of the
  incoming neighbours' rows. Two graph-convolution layers over that mean, then a dense layer with the
  cut-off at zero and a plain dense layer. The gather and the scatter-add are carried as they are printed;
  nothing here reads inside them.
-/
import proofs.«425123_j84121229460234_1_alg».proof.Proof.Gen.KernelIdeal
import proofs.«425123_j84121229460234_1_alg».proof.Proof.Spec

noncomputable section

namespace Cert.Net

open Idealize.ShloMosaic Cert.KernelIdeal Cert.KernelIdeal.Facts₀ Cert.KernelIdeal.Facts

/-- 1 / max(deg, 1), deg the number of edges arriving at each node. -/
def invDeg (dst : IVec S1600000 32) : FVec Ideal S100000 .f32 :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The mean of the incoming neighbours' rows of a 64-column table. -/
def mean64 (x : FVec Ideal S100000x64 .f32) (src dst : IVec S1600000 32) : FVec Ideal S100000x64 .f32 :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 x
        (broadcastInDim S1600000x1 ![0] bcast_S1600000_S1600000x1_0 src)))
    (broadcastInDim S100000x64 ![0, 1] bcast_S100000x1_S100000x64_0_1
      (broadcastInDim S100000x1 ![0] bcast_S100000_S100000x1_0 (invDeg dst)))

/-- The mean of the incoming neighbours' rows of a 128-column table. -/
def mean128 (x : FVec Ideal S100000x128 .f32) (src dst : IVec S1600000 32) : FVec Ideal S100000x128 .f32 :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0 src)))
    (broadcastInDim S100000x128 ![0, 1] bcast_S100000x1_S100000x128_0_1
      (broadcastInDim S100000x1 ![0] bcast_S100000_S100000x1_0 (invDeg dst)))

/-- The first graph-convolution layer's output. -/
def layer1 (x0 : FVec Ideal S100000x64 .f32) (x1 x2 : FVec Ideal S64x128 .f32) (x3 : FVec Ideal S128 .f32)
    (src dst : IVec S1600000 32) : FVec Ideal S100000x128 .f32 :=
  Spec.sage x0 (mean64 x0 src dst) x2 x1 (shapeCast S1x128 x3 shapeCasts_S128_S1x128)

/-- The whole network. -/
def net (x0 : FVec Ideal S100000x64 .f32) (x1 x2 : FVec Ideal S64x128 .f32) (x3 : FVec Ideal S128 .f32)
    (x4 x5 : FVec Ideal S128x128 .f32) (x6 : FVec Ideal S128 .f32) (x7 : FVec Ideal S128x128 .f32)
    (x8 : FVec Ideal S128 .f32) (x9 : FVec Ideal S128x64 .f32) (x10 : FVec Ideal S64 .f32)
    (src dst : IVec S1600000 32) : FVec Ideal S100000x64 .f32 :=
  Spec.dense
    (Spec.denseRelu
      (Spec.sage (layer1 x0 x1 x2 x3 src dst) (mean128 (layer1 x0 x1 x2 x3 src dst) src dst) x5 x4
        (shapeCast S1x128 x6 shapeCasts_S128_S1x128))
      x7 (shapeCast S1x128 x8 shapeCasts_S128_S1x128))
    x9 (shapeCast S1x64 x10 shapeCasts_S64_S1x64)

end Cert.Net

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Body0.lean ====
/-
  The first kernel's body as a function of its loaded blocks.

  The body takes a block x of 5000 rows of 64 features, the block h of the same rows' aggregated neighbour
  features, two 64-by-128 weight matrices W_self and W_neigh and one bias row b of 128 entries, and stores
  one 5000-by-128 block. Over the extended reals every change of number format is the identity, a cast to the
  same shape is the identity, a matrix product accumulated into zero is the plain sum over the 64 contraction
  positions of the products of a row of the left factor and a column of the right factor, the bias row spread
  over 5000 rows reads b at the column alone, and the zero word is the number 0. So entry (p, q) of the
  stored block is

      max( (∑ k, x[p,k] · W_self[k,q]  +  ∑ k, h[p,k] · W_neigh[k,q])  +  b[0,q],  0 ),

  which is the graph-convolution layer of the five blocks, entry by entry, with the sums grouped exactly as
  the layer groups them: no law of arithmetic is needed, only the reading of each operation at an entry.
-/
import proofs.«425123_j84121229460234_1_alg».proof.Proof.Gen.KernelIdeal.Skeleton
import proofs.«425123_j84121229460234_1_alg».proof.Proof.Spec
import proofs.«425123_j84121229460234_1_alg».proof.Proof.LibPlainDot
import Idealize.ShloMosaic.Lib.ValueLayout

noncomputable section

namespace Cert.KernelIdeal.Body

open Idealize.ShloMosaic Idealize.ShloMosaic.ValueIdx Cert.KernelIdeal Cert.KernelIdeal.Gen

/-- The body's matrix product of a 5000-by-64 block and a 64-by-128 matrix, accumulated into zero, read at
    entry (p, q): the sum over the 64 contraction positions k of l[p,k] · r[k,q]. -/
private theorem dot_at (l : FVec Ideal S5000x64 .bf16) (r : FVec Ideal S64x128 .bf16) (p : Fin 5000) (q : Fin 128) :
    matmul dot_S5000x64_S64x128_S5000x128_1_0_0_1_n_n none l r
        (constant (F := Ideal) S5000x128 .f32 0x00000000#32) (ix2 p q)
      = ∑ k : Fin 64, l (ix2 p k) * r (ix2 k q) :=
  PlainDot.matmul_zero_apply dot_S5000x64_S64x128_S5000x128_1_0_0_1_n_n rfl rfl rfl rfl rfl rfl rfl rfl none l r p q

/-- The value the first kernel stores is the graph-convolution layer of its five loaded blocks. -/
theorem pay0_eq (v0 v2 : Vec Ideal S5000x64 .f32) (v5 v7 : Vec Ideal S64x128 .f32) (v12 : Vec Ideal S1x128 .f32) :
    k0_pay1 (F := Ideal) v0 v2 v5 v7 v12 = Spec.sage v0 v2 v5 v7 v12 := by
  funext y
  obtain ⟨p, q, rfl⟩ : ∃ (p : Fin 5000) (q : Fin 128), y = ix2 p q := ⟨y 0, y 1, eq_ix2 y⟩
  rw [Spec.sage_apply]
  unfold k0_pay1
  -- the maximum, the two sums and the spread of the scalar zero, each read at the entry (p, q)
  show max ((matmul dot_S5000x64_S64x128_S5000x128_1_0_0_1_n_n none (truncf .bf16 v0 bitsLt_bf16_f32)
              (truncf .bf16 v5 bitsLt_bf16_f32) (constant (F := Ideal) S5000x128 .f32 0x00000000#32) (ix2 p q)
            + matmul dot_S5000x64_S64x128_S5000x128_1_0_0_1_n_n none
              (truncf .bf16 (shapeCast S5000x64 v2 shapeCasts_S5000x64_S5000x64) bitsLt_bf16_f32)
              (truncf .bf16 v7 bitsLt_bf16_f32) (constant (F := Ideal) S5000x128 .f32 0x00000000#32) (ix2 p q))
          + broadcastTo S5000x128 (shapeCast S1x128 v12 shapeCasts_S1x128_S1x128) broadcasts_S1x128_S5000x128 (ix2 p q))
        (Ideal.ofBits .f32 0x00000000#32) = _
  -- the two products as sums over the contraction position; the casts to the same shape dropped; the bias
  -- row read at its column; the zero word as the number 0. What is left differs from the layer's entry only
  -- by the format changes, which are the identity on extended reals.
  rw [dot_at, dot_at, shapeCast_self, shapeCast_self, broadcastTo_1b_ab_apply, Ideal.ofBits_zero_f32]
  rfl

end Cert.KernelIdeal.Body

end
-- ==== Proof.Region0.lean ====
/-
  The first pallas_call's output array after its twenty grid points, from any entry contents.

  The call works through the 100000 rows in twenty blocks of 5000. At point t it has before it rows
  5000·t … 5000·t + 4999 of the feature array and of the aggregated-neighbour array, and the two weight
  arrays and the bias row whole; it writes rows 5000·t … 5000·t + 4999 of the output, all 128 columns.
  What it writes is the graph-convolution layer  max((x W_self + h W_neigh) + b, 0)  of the blocks it holds.

  Entry (p, q) of that layer is a sum over the 64 contraction positions k of  x[p,k]·W_self[k,q]  and
  h[p,k]·W_neigh[k,q],  plus b[q]: it looks at row p of the two row-indexed operands only. Row p of block t
  is row 5000·t + p of the array, so the layer of the blocks at (p, q) is the layer of the whole arrays at
  (5000·t + p, q): each point writes its own block of ONE whole-array function. Every row r lies in block
  r / 5000, so the twenty blocks cover the output array, which therefore ends holding that function.
-/
import proofs.«425123_j84121229460234_1_alg».proof.Proof.Gen.KernelIdeal.Frame
import proofs.«425123_j84121229460234_1_alg».proof.Proof.Body0
import Idealize.ShloMosaic.Lib.Pipeline.Value

noncomputable section

namespace Cert.KernelIdeal.Region

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The offsets (0, 0) are the zero offsets. -/
private theorem zero_off : (![0, 0] : Fin 2 → Nat) = fun _ => 0 := funext fun a => by fin_cases a <;> rfl

/-- Which block each window holds at point t: the features, the aggregated neighbours and the output hold
    block (t, 0), the t-th group of rows; the two weight arrays and the bias row hold block (0, 0), themselves. -/
private theorem block_index0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Row p of the feature block at point t is row 5000·t + p of the feature array. -/
private theorem feat_block (c : Dev nD) (t : Fin cfg0.N) (p : Fin 5000) (k : Fin 64) (hP : 5000 * t.val + p.val < 100000) :
    (iblk0 V c 0 t : Vec Ideal S5000x64 .f32) (ix2 p k)
      = (V c main_arg0 : Vec Ideal S100000x64 .f32) (ix2 (⟨5000 * t.val + p.val, hP⟩ : Fin 100000) k) := by
  obtain ⟨e0, e1, -⟩ := block_index0 t
  show V c main_arg0 (((cfg0.win 0).blk t).view.emb (ix2 p k)) = V c main_arg0 _
  refine congrArg _ ?_
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

/-- Row p of the aggregated-neighbour block at point t is row 5000·t + p of that array. -/
private theorem neigh_block (c : Dev nD) (t : Fin cfg0.N) (p : Fin 5000) (k : Fin 64) (hP : 5000 * t.val + p.val < 100000) :
    (iblk0 V c 1 t : Vec Ideal S5000x64 .f32) (ix2 p k)
      = (V c main_v14 : Vec Ideal S100000x64 .f32) (ix2 (⟨5000 * t.val + p.val, hP⟩ : Fin 100000) k) := by
  obtain ⟨-, -, e0, e1, -⟩ := block_index0 t
  show V c main_v14 (((cfg0.win 1).blk t).view.emb (ix2 p k)) = V c main_v14 _
  refine congrArg _ ?_
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

/-- The block of W_self at every point is W_self. -/
private theorem wself_block (c : Dev nD) (t : Fin cfg0.N) (k : Fin 64) (q : Fin 128) :
    (iblk0 V c 2 t : Vec Ideal S64x128 .f32) (ix2 k q) = (V c main_arg2 : Vec Ideal S64x128 .f32) (ix2 k q) := by
  obtain ⟨-, -, -, -, e0, e1, -⟩ := block_index0 t
  show V c main_arg2 (((cfg0.win 2).blk t).view.emb (ix2 k q)) = V c main_arg2 _
  refine congrArg _ ?_
  funext a; apply Fin.ext
  match a with
  | ⟨0, _⟩ => show win0_2.index t (0 : Fin 2) * 64 + 1 * k.val = k.val; omega
  | ⟨1, _⟩ => show win0_2.index t (1 : Fin 2) * 128 + 1 * q.val = q.val; omega

/-- The block of W_neigh at every point is W_neigh. -/
private theorem wneigh_block (c : Dev nD) (t : Fin cfg0.N) (k : Fin 64) (q : Fin 128) :
    (iblk0 V c 3 t : Vec Ideal S64x128 .f32) (ix2 k q) = (V c main_arg1 : Vec Ideal S64x128 .f32) (ix2 k q) := by
  obtain ⟨-, -, -, -, -, -, e0, e1, -⟩ := block_index0 t
  show V c main_arg1 (((cfg0.win 3).blk t).view.emb (ix2 k q)) = V c main_arg1 _
  refine congrArg _ ?_
  funext a; apply Fin.ext
  match a with
  | ⟨0, _⟩ => show win0_3.index t (0 : Fin 2) * 64 + 1 * k.val = k.val; omega
  | ⟨1, _⟩ => show win0_3.index t (1 : Fin 2) * 128 + 1 * q.val = q.val; omega

/-- The block of the bias row at every point is the bias row. -/
private theorem bias_block (c : Dev nD) (t : Fin cfg0.N) (z : Fin 1) (q : Fin 128) :
    (iblk0 V c 4 t : Vec Ideal S1x128 .f32) (ix2 z q) = (V c main_v15 : Vec Ideal S1x128 .f32) (ix2 z q) := by
  obtain ⟨-, -, -, -, -, -, -, -, e0, e1, -⟩ := block_index0 t
  show V c main_v15 (((cfg0.win 4).blk t).view.emb (ix2 z q)) = V c main_v15 _
  refine congrArg _ ?_
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- A row of the layer depends only on the same row of the row-indexed operands: if row p of x and of h is
    row P of X and of H, and column q of the weights and of the bias agree, the layer of the small operands at
    (p, q) is the layer of the large ones at (P, q). Both are the same sum over the 64 contraction positions. -/
private theorem sage_rows (x h : Vec Ideal S5000x64 .f32) (X H : Vec Ideal S100000x64 .f32)
    (ws wn Ws Wn : Vec Ideal S64x128 .f32) (b B : Vec Ideal S1x128 .f32)
    (p : Fin 5000) (P : Fin 100000) (q : Fin 128)
    (hx : ∀ k : Fin 64, x (ix2 p k) = X (ix2 P k)) (hh : ∀ k : Fin 64, h (ix2 p k) = H (ix2 P k))
    (hws : ∀ k : Fin 64, ws (ix2 k q) = Ws (ix2 k q)) (hwn : ∀ k : Fin 64, wn (ix2 k q) = Wn (ix2 k q))
    (hb : b (ix2 (0 : Fin 1) q) = B (ix2 (0 : Fin 1) q)) :
    Spec.sage x h ws wn b (ix2 p q) = Spec.sage X H Ws Wn B (ix2 P q) := by
  rw [Spec.sage_apply, Spec.sage_apply]
  unfold Spec.rowCol
  simp only [hx, hh, hws, hwn, hb]

/-- Entry (p, q) of the output block at point t sits at (5000·t + p, q) of the output array. -/
private theorem out_emb (t : Fin cfg0.N) (p : Fin 5000) (q : Fin 128) (hP : 5000 * t.val + p.val < 100000) :
    ((cfg0.win 5).blk t).view.emb (ix2 p q) = (ix2 (⟨5000 * t.val + p.val, hP⟩ : Fin 100000) q : S100000x128.Idx) := by
  obtain ⟨-, -, -, -, -, -, -, -, -, -, e0, e1⟩ := block_index0 t
  funext a; apply Fin.ext
  match a with
  | ⟨0, _⟩ => show win0_5.index t (0 : Fin 2) * 5000 + 1 * p.val = 5000 * t.val + p.val; omega
  | ⟨1, _⟩ => show win0_5.index t (1 : Fin 2) * 128 + 1 * q.val = q.val; omega

/-- What point t writes back is block t of the layer of the whole arrays: the body stores the layer of the
    blocks it loaded, and that layer at (p, q) reads only row p of the row blocks, which is row 5000·t + p. -/
private theorem out_block (c : Dev nD) (t : Fin cfg0.N) :
    (dat0 (F := Ideal) V c).flushed 5 t
      = ((cfg0.win 5).blk t).view.read (Elt Ideal)
          (Spec.sage (V c main_arg0) (V c main_v14) (V c main_arg2) (V c main_arg1) (V c main_v15)) := by
  show (cfg0.win 5).cut (grid0.coords t) ((dat0 V c).after 5 t) = _
  rw [after0_5]
  unfold out0_5
  rw [View.canon_unit_zero zero_off]
  simp only [View.ld_unit_zero (S := S5000x64) zero_off, View.ld_unit_zero (S := S64x128) zero_off,
    View.ld_unit_zero (S := S1x128) zero_off]
  rw [Body.pay0_eq]
  funext y
  obtain ⟨p, q, rfl⟩ : ∃ (p : Fin 5000) (q : Fin 128), y = ix2 p q := ⟨y 0, y 1, eq_ix2 y⟩
  have hN : cfg0.N = 20 := N_0
  have hP : 5000 * t.val + p.val < 100000 := by have := t.isLt; have := p.isLt; omega
  show Spec.sage (iblk0 V c 0 t) (iblk0 V c 1 t) (iblk0 V c 2 t) (iblk0 V c 3 t) (iblk0 V c 4 t) (ix2 p q)
      = Spec.sage (V c main_arg0) (V c main_v14) (V c main_arg2) (V c main_arg1) (V c main_v15)
          (((cfg0.win 5).blk t).view.emb (ix2 p q))
  rw [out_emb t p q hP]
  exact sage_rows (iblk0 V c 0 t) (iblk0 V c 1 t) (V c main_arg0) (V c main_v14)
    (iblk0 V c 2 t) (iblk0 V c 3 t) (V c main_arg2) (V c main_arg1) (iblk0 V c 4 t) (V c main_v15)
    p ⟨5000 * t.val + p.val, hP⟩ q
    (fun k => feat_block V c t p k hP) (fun k => neigh_block V c t p k hP)
    (fun k => wself_block V c t k q) (fun k => wneigh_block V c t k q) (bias_block V c t 0 q)

/-- An entry of the output array is in point t's block iff, on each axis, its coordinate lies in the block's range. -/
private theorem mem_out_block (t : Fin cfg0.N) (i : S100000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v16).slice (win0_5.rect t)).set ↔ _
  rw [View.set_slice_whole, Rect.mem_set_unit]
  exact Iff.rfl

/-- The twenty blocks cover the output array: row r is in block r / 5000, and a block has every column. -/
private theorem out_cover (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, -, -, e0, e1⟩ := block_index0 t
  refine ⟨t, flush0_5 t, ?_⟩
  rw [mem_out_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- Block by block the first pallas_call writes the graph-convolution layer of the arrays it finds; its twenty
    blocks of 5000 rows cover the output array. -/
theorem final0 (c : Dev nD) :
    (dat0 (F := Ideal) V c).arrAt 5 cfg0.N
      = Spec.sage (V c main_arg0) (V c main_v14) (V c main_arg2) (V c main_arg1) (V c main_v15) :=
  (dat0 (F := Ideal) V c).arrAt_eq_of_cover 5
    (Spec.sage (V c main_arg0) (V c main_v14) (V c main_arg2) (V c main_arg1) (V c main_v15))
    (fun t _ => out_block V c t) out_cover

end Cert.KernelIdeal.Region

end
-- ==== Proof.Body1.lean ====
/-
  The second kernel's body as a function of its loaded blocks.

  The body takes two [5000, 128] blocks x and h (a block of rows of the node features and of the aggregated
  neighbour features), four weight matrices and three bias rows, and stores one [5000, 64] block. Over the
  extended reals a change of float format is the identity and a matrix product into a zero accumulator, read at
  entry (p, q), is the sum over k of the products  l (p, k) * r (k, q).  So the stored block is, entry by entry,
  three fused layers:
      s = max((x W_self + h W_neigh) + b, 0)      (the graph-convolution layer, 128 columns),
      r = max(s W_1 + b_1, 0)                      (a dense layer cut off at zero, 128 columns),
      o = r W_2 + b_2                              (a plain dense layer, 64 columns),
  each bias a single row added to every row. Each layer is first identified, for arbitrary operands of the
  block shapes, with the corresponding whole-array function of the specification; the body is their composite.
-/
import proofs.«425123_j84121229460234_1_alg».proof.Proof.Gen.KernelIdeal.Skeleton
import proofs.«425123_j84121229460234_1_alg».proof.Proof.Spec
import proofs.«425123_j84121229460234_1_alg».proof.Proof.LibPlainDot
import Idealize.ShloMosaic.Lib.ValueLayout

noncomputable section

namespace Cert.KernelIdeal.Body

open Idealize.ShloMosaic Idealize.ShloMosaic.ValueIdx Cert.KernelIdeal Cert.KernelIdeal.Gen

/-- A [5000, 128] by [128, 128] product into the zero accumulator, at entry (p, q): row p against column q. -/
private theorem mmA_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  PlainDot.matmul_zero_apply dot_S5000x128_S128x128_S5000x128_1_0_0_1_n_n rfl rfl rfl rfl rfl rfl rfl rfl none l r p q

/-- A [5000, 128] by [128, 64] product into the zero accumulator, at entry (p, q): row p against column q. -/
private theorem mmB_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) :=
  PlainDot.matmul_zero_apply dot_S5000x128_S128x64_S5000x64_1_0_0_1_n_n rfl rfl rfl rfl rfl rfl rfl rfl none l r p q

/-- The first layer, for any operands: the two products added, the bias row added to every row, the maximum with
    zero taken, is the graph-convolution layer max((x W_self + h W_neigh) + b, 0). -/
private theorem sage_val (x h : FVec Ideal S5000x128 .f32) (ws wn : FVec Ideal S128x128 .f32) (b : FVec Ideal S1x128 .f32) :
    maximumf
      (addf
        (addf
          (matmul dot_S5000x128_S128x128_S5000x128_1_0_0_1_n_n none
            (truncf .bf16 (shapeCast S5000x128 x shapeCasts_S5000x128_S5000x128) bitsLt_bf16_f32) (truncf .bf16 ws bitsLt_bf16_f32)
            (constant (F := Ideal) S5000x128 .f32 0x00000000#32))
          (matmul dot_S5000x128_S128x128_S5000x128_1_0_0_1_n_n none
            (truncf .bf16 (shapeCast S5000x128 h shapeCasts_S5000x128_S5000x128) bitsLt_bf16_f32) (truncf .bf16 wn bitsLt_bf16_f32)
            (constant (F := Ideal) S5000x128 .f32 0x00000000#32)))
        (broadcastTo S5000x128 (shapeCast S1x128 b shapeCasts_S1x128_S1x128) broadcasts_S1x128_S5000x128))
      (broadcast S5000x128 (Scalar.ofBits (F := Ideal) .f32 0x00000000#32))
    = Spec.sage x h ws wn b := by
  funext y
  obtain ⟨p, q, rfl⟩ : ∃ (p : Fin 5000) (q : Fin 128), y = ix2 p q := ⟨y 0, y 1, eq_ix2 y⟩
  rw [Spec.sage_apply, shapeCast_self, shapeCast_self, shapeCast_self, maximumf_apply, addf_apply, addf_apply,
    broadcast_apply, mmA_apply, mmA_apply, broadcastTo_1b_ab_apply]
  exact congrArg₂ max rfl Ideal.ofBits_zero_f32

/-- The second layer, for any operands: a product, the bias row added to every row, the maximum with zero taken,
    is the dense layer cut off at zero max(x W + b, 0). -/
private theorem denseRelu_val (x : FVec Ideal S5000x128 .f32) (w : FVec Ideal S128x128 .f32) (b : FVec Ideal S1x128 .f32) :
    maximumf
      (addf
        (matmul dot_S5000x128_S128x128_S5000x128_1_0_0_1_n_n none
          (truncf .bf16 x bitsLt_bf16_f32) (truncf .bf16 w bitsLt_bf16_f32)
          (constant (F := Ideal) S5000x128 .f32 0x00000000#32))
        (broadcastTo S5000x128 (shapeCast S1x128 b shapeCasts_S1x128_S1x128) broadcasts_S1x128_S5000x128))
      (broadcast S5000x128 (Scalar.ofBits (F := Ideal) .f32 0x00000000#32))
    = Spec.denseRelu x w b := by
  funext y
  obtain ⟨p, q, rfl⟩ : ∃ (p : Fin 5000) (q : Fin 128), y = ix2 p q := ⟨y 0, y 1, eq_ix2 y⟩
  rw [Spec.denseRelu_apply, shapeCast_self, maximumf_apply, addf_apply, broadcast_apply, mmA_apply,
    broadcastTo_1b_ab_apply]
  exact congrArg₂ max rfl Ideal.ofBits_zero_f32

/-- The third layer, for any operands: a product and the bias row added to every row is the dense layer x W + b. -/
private theorem dense_val (x : FVec Ideal S5000x128 .f32) (w : FVec Ideal S128x64 .f32) (b : FVec Ideal S1x64 .f32) :
    addf
      (matmul dot_S5000x128_S128x64_S5000x64_1_0_0_1_n_n none
        (truncf .bf16 x bitsLt_bf16_f32) (truncf .bf16 w bitsLt_bf16_f32)
        (constant (F := Ideal) S5000x64 .f32 0x00000000#32))
      (broadcastTo S5000x64 (shapeCast S1x64 b shapeCasts_S1x64_S1x64) broadcasts_S1x64_S5000x64)
    = Spec.dense x w b := by
  funext y
  obtain ⟨p, q, rfl⟩ : ∃ (p : Fin 5000) (q : Fin 64), y = ix2 p q := ⟨y 0, y 1, eq_ix2 y⟩
  rw [Spec.dense_apply, shapeCast_self, addf_apply, mmB_apply, broadcastTo_1b_ab_apply]
  rfl

/-- The value the second kernel stores: a graph-convolution layer, a dense layer cut off at zero and a plain
    dense layer of its nine loaded blocks. -/
theorem pay1_eq (v0 v3 : Vec Ideal S5000x128 .f32) (v6 v8 : Vec Ideal S128x128 .f32) (v13 : Vec Ideal S1x128 .f32)
    (v20 : Vec Ideal S128x128 .f32) (v23 : Vec Ideal S1x128 .f32) (v30 : Vec Ideal S128x64 .f32) (v33 : Vec Ideal S1x64 .f32) :
    k1_pay1 (F := Ideal) (k1_pay2 v0 v3 v6 v8 v13 v20 v23 v30) (k1_pay3 v33)
      = Spec.dense (Spec.denseRelu (Spec.sage v0 v3 v6 v8 v13) v20 v23) v30 v33 := by
  rw [← dense_val, ← denseRelu_val, ← sage_val]
  rfl

end Cert.KernelIdeal.Body

end
-- ==== Proof.Region1.lean ====
/-
  The second pallas_call's output array after its twenty grid points, from any entry contents.

  The call runs over a grid of 20 points. At point t it stages rows 5000·t … 5000·t + 4999 of two
  [100000,128] arrays (the first layer's output and the aggregated neighbour features) together with
  the whole of three weight matrices and three bias rows, and writes back rows 5000·t … 5000·t + 4999
  of the [100000,64] output. What it writes is three fused layers of what it staged: a graph-convolution
  layer  max((x W_self + h W_neigh) + b, 0),  a dense layer cut off at zero, and a plain dense layer.

  Entry (p, q) of such a stack of layers depends on row p of the two row-indexed operands only (every
  matrix product is a sum over the contraction position along that row), and on all of the weights and
  biases. So the layers of the staged blocks, at row p of block t, are the layers of the whole arrays at
  row 5000·t + p: each point writes its block of ONE whole-array function. The twenty blocks tile the
  100000 rows (row r lies in block r / 5000), hence the output array ends holding that function.
-/
import proofs.«425123_j84121229460234_1_alg».proof.Proof.Gen.KernelIdeal.Frame
import proofs.«425123_j84121229460234_1_alg».proof.Proof.Body1
import Idealize.ShloMosaic.Lib.Pipeline.Value

noncomputable section

namespace Cert.KernelIdeal.Region.Epilogue

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The offsets (0, 0) of a whole-buffer access are the zero function. -/
theorem zero_offsets : (![0, 0] : Fin 2 → Nat) = fun _ => 0 := funext fun a => by fin_cases a <;> rfl

/-- ROW LOCALITY. Entry (p, q) of the three layers of x, h is entry (P, q) of the three layers of X, H with
    the same weights and biases, as soon as row p of x is row P of X and row p of h is row P of H: each
    matrix product at (p, ·) is a sum along row p, and the cut-offs and bias additions are entrywise. -/
theorem layers_row {n N : Nat} (x h : Spec.Mat n 128) (X H : Spec.Mat N 128) (ws wn : Spec.Mat 128 128)
    (b1 : Spec.Mat 1 128) (w2 : Spec.Mat 128 128) (b2 : Spec.Mat 1 128) (w3 : Spec.Mat 128 64) (b3 : Spec.Mat 1 64)
    (p : Fin n) (P : Fin N) (hx : ∀ k : Fin 128, x (ix2 p k) = X (ix2 P k))
    (hh : ∀ k : Fin 128, h (ix2 p k) = H (ix2 P k)) (q : Fin 64) :
    Spec.dense (Spec.denseRelu (Spec.sage x h ws wn b1) w2 b2) w3 b3 (ix2 p q)
      = Spec.dense (Spec.denseRelu (Spec.sage X H ws wn b1) w2 b2) w3 b3 (ix2 P q) := by
  simp only [Spec.dense_apply, Spec.denseRelu_apply, Spec.sage_apply, Spec.rowCol, hx, hh]

/-- The block index of every window at every grid point, decided over the 20 points: the two row-indexed
    inputs and the output take block (t, 0); the weights and biases take block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The grid has 20 points. -/
theorem grid_lt (t : Fin cfg1.N) : t.val < 20 := lt_of_lt_of_eq t.isLt N_1

/-! ## Each window's block as a part of its array

An element of a block sits in the array, on each axis, at block index × block size + its coordinate in the block. -/

/-- Row p of point t's block of the first layer's output is row 5000·t + p of the array. -/
theorem rows_block0 (c : Dev nD) (t : Fin cfg1.N) (p : Fin 5000) (k : Fin 128) (P : Fin 100000)
    (hP : P.val = 5000 * t.val + p.val) :
    (iblk1 V c 0 t : Vec Ideal S5000x128 .f32) (ix2 p k) = (V c main_v16 : Vec Ideal S100000x128 .f32) (ix2 P k) := by
  obtain ⟨e0, e1, -⟩ := index_maps t
  show V c main_v16 (((cfg1.win 0).blk t).view.emb (ix2 p k)) = V c main_v16 (ix2 P k)
  refine congrArg _ ?_
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

/-- Row p of point t's block of the aggregated neighbour features is row 5000·t + p of the array. -/
theorem rows_block1 (c : Dev nD) (t : Fin cfg1.N) (p : Fin 5000) (k : Fin 128) (P : Fin 100000)
    (hP : P.val = 5000 * t.val + p.val) :
    (iblk1 V c 1 t : Vec Ideal S5000x128 .f32) (ix2 p k) = (V c main_v23 : Vec Ideal S100000x128 .f32) (ix2 P k) := by
  obtain ⟨-, -, e0, e1, -⟩ := index_maps t
  show V c main_v23 (((cfg1.win 1).blk t).view.emb (ix2 p k)) = V c main_v23 (ix2 P k)
  refine congrArg _ ?_
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

/-- The block of the graph-convolution layer's self weights is the whole array at every point. -/
theorem whole_block2 (c : Dev nD) (t : Fin cfg1.N) :
    (iblk1 V c 2 t : Vec Ideal S128x128 .f32) = (V c main_arg5 : Vec Ideal S128x128 .f32) := by
  obtain ⟨-, -, -, -, e0, e1, -⟩ := index_maps t
  funext y
  show V c main_arg5 (((cfg1.win 2).blk t).view.emb y) = V c main_arg5 y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The block of the graph-convolution layer's neighbour weights is the whole array at every point. -/
theorem whole_block3 (c : Dev nD) (t : Fin cfg1.N) :
    (iblk1 V c 3 t : Vec Ideal S128x128 .f32) = (V c main_arg4 : Vec Ideal S128x128 .f32) := by
  obtain ⟨-, -, -, -, -, -, e0, e1, -⟩ := index_maps t
  funext y
  show V c main_arg4 (((cfg1.win 3).blk t).view.emb y) = V c main_arg4 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The block of the graph-convolution layer's bias row is the whole array at every point. -/
theorem whole_block4 (c : Dev nD) (t : Fin cfg1.N) :
    (iblk1 V c 4 t : Vec Ideal S1x128 .f32) = (V c main_v24 : Vec Ideal S1x128 .f32) := by
  obtain ⟨-, -, -, -, -, -, -, -, e0, e1, -⟩ := index_maps t
  funext y
  show V c main_v24 (((cfg1.win 4).blk t).view.emb y) = V c main_v24 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The block of the second layer's weights is the whole array at every point. -/
theorem whole_block5 (c : Dev nD) (t : Fin cfg1.N) :
    (iblk1 V c 5 t : Vec Ideal S128x128 .f32) = (V c main_arg7 : Vec Ideal S128x128 .f32) := by
  obtain ⟨-, -, -, -, -, -, -, -, -, -, e0, e1, -⟩ := index_maps t
  funext y
  show V c main_arg7 (((cfg1.win 5).blk t).view.emb y) = V c main_arg7 y
  refine congrArg _ ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The block of the second layer's bias row is the whole array at every point. -/
theorem whole_block6 (c : Dev nD) (t : Fin cfg1.N) :
    (iblk1 V c 6 t : Vec Ideal S1x128 .f32) = (V c main_v25 : Vec Ideal S1x128 .f32) := by
  obtain ⟨-, -, -, -, -, -, -, -, -, -, -, -, e0, e1, -⟩ := index_maps t
  funext y
  show V c main_v25 (((cfg1.win 6).blk t).view.emb y) = V c main_v25 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The block of the third layer's weights is the whole array at every point. -/
theorem whole_block7 (c : Dev nD) (t : Fin cfg1.N) :
    (iblk1 V c 7 t : Vec Ideal S128x64 .f32) = (V c main_arg9 : Vec Ideal S128x64 .f32) := by
  obtain ⟨-, -, -, -, -, -, -, -, -, -, -, -, -, -, e0, e1, -⟩ := index_maps t
  funext y
  show V c main_arg9 (((cfg1.win 7).blk t).view.emb y) = V c main_arg9 y
  refine congrArg _ ?_
  funext a; apply Fin.ext
  match a with
  | ⟨0, _⟩ => show win1_7.index t (0 : Fin 2) * 128 + 1 * (y 0).val = (y 0).val; omega
  | ⟨1, _⟩ => show win1_7.index t (1 : Fin 2) * 64 + 1 * (y 1).val = (y 1).val; omega

/-- The block of the third layer's bias row is the whole array at every point. -/
theorem whole_block8 (c : Dev nD) (t : Fin cfg1.N) :
    (iblk1 V c 8 t : Vec Ideal S1x64 .f32) = (V c main_v26 : Vec Ideal S1x64 .f32) := by
  obtain ⟨-, -, -, -, -, -, -, -, -, -, -, -, -, -, -, -, e0, e1, -⟩ := index_maps t
  funext y
  show V c main_v26 (((cfg1.win 8).blk t).view.emb y) = V c main_v26 y
  refine congrArg _ ?_
  funext a; apply Fin.ext
  match a with
  | ⟨0, _⟩ => show win1_8.index t (0 : Fin 2) * 1 + 1 * (y 0).val = (y 0).val; omega
  | ⟨1, _⟩ => show win1_8.index t (1 : Fin 2) * 64 + 1 * (y 1).val = (y 1).val; omega

/-! ## What a point writes back -/

/-- The three fused layers of the arrays the second call finds staged, as one [100000,64] array. -/
abbrev layersOf (c : Dev nD) : Vec Ideal S100000x64 .f32 :=
  (Spec.dense
          (Spec.denseRelu
            (Spec.sage (V c main_v16) (V c main_v23) (V c main_arg5) (V c main_arg4) (V c main_v24))
            (V c main_arg7) (V c main_v25))
          (V c main_arg9) (V c main_v26))

/-- Point t writes back block t of `layersOf`: the body leaves the layers of its loaded blocks; the weight and bias
    blocks are the arrays, and by row locality row p of the layers of the row blocks is row 5000·t + p of the
    layers of the arrays, which is where row p of the output block sits. -/
theorem flushed_layers (c : Dev nD) (t : Fin cfg1.N) :
    (dat1 (F := Ideal) V c).flushed 9 t = ((cfg1.win 9).blk t).view.read (Elt Ideal) (layersOf V c) := by
  show (cfg1.win 9).cut (grid1.coords t) ((dat1 V c).after 9 t) = _
  rw [after1_9]
  unfold out1_9
  rw [View.canon_unit_zero zero_offsets]
  simp only [View.ld_unit_zero (S := S5000x128) zero_offsets, View.ld_unit_zero (S := S128x128) zero_offsets,
    View.ld_unit_zero (S := S1x128) zero_offsets, View.ld_unit_zero (S := S128x64) zero_offsets,
    View.ld_unit_zero (S := S1x64) zero_offsets]
  rw [Body.pay1_eq]
  rw [whole_block2 V c t, whole_block3 V c t, whole_block4 V c t, whole_block5 V c t, whole_block6 V c t,
    whole_block7 V c t, whole_block8 V c t]
  obtain ⟨-, -, -, -, -, -, -, -, -, -, -, -, -, -, -, -, -, -, e0, e1⟩ := index_maps t
  have ht := grid_lt t
  funext y
  obtain ⟨p, q, rfl⟩ : ∃ (p : Fin 5000) (q : Fin 64), y = ix2 p q := ⟨y 0, y 1, eq_ix2 y⟩
  have hP : 5000 * t.val + p.val < 100000 := by have := p.isLt; omega
  refine (layers_row (iblk1 V c 0 t) (iblk1 V c 1 t) (V c main_v16) (V c main_v23) (V c main_arg5) (V c main_arg4)
    (V c main_v24) (V c main_arg7) (V c main_v25) (V c main_arg9) (V c main_v26) p ⟨5000 * t.val + p.val, hP⟩
    (fun k => rows_block0 V c t p k _ rfl) (fun k => rows_block1 V c t p k _ rfl) q).trans ?_
  show layersOf V c (ix2 ⟨5000 * t.val + p.val, hP⟩ q) = layersOf V c (((cfg1.win 9).blk t).view.emb (ix2 p q))
  refine congrArg (layersOf V c) ?_
  funext a; apply Fin.ext
  match a with
  | ⟨0, _⟩ => show 5000 * t.val + p.val = win1_9.index t (0 : Fin 2) * 5000 + 1 * p.val; omega
  | ⟨1, _⟩ => show q.val = win1_9.index t (1 : Fin 2) * 64 + 1 * q.val; omega

/-! ## The blocks tile the output array -/

/-- An index of the output array lies in point t's block iff on each axis it lies in the block's range. -/
theorem mem_block (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v27).slice (win1_9.rect t)).set ↔ _
  rw [View.set_slice_whole, Rect.mem_set_unit]
  exact Iff.rfl

/-- Every index of the output array is in some point's block: row r is in the block of point r / 5000, which
    spans all 64 columns. -/
theorem covered (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (show (i 0).val / 5000 < 20 by omega) N_1.symm⟩, rfl⟩
  obtain ⟨-, -, -, -, -, -, -, -, -, -, -, -, -, -, -, -, -, -, e0, e1⟩ := index_maps t
  refine ⟨t, flush1_9 t, ?_⟩
  rw [mem_block]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

end Cert.KernelIdeal.Region.Epilogue

namespace Cert.KernelIdeal.Region

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Block by block the second pallas_call writes the three fused layers of the arrays it finds; its twenty
    blocks of 5000 rows cover the output array. -/
theorem final1 (c : Dev nD) :
    (dat1 (F := Ideal) V c).arrAt 9 cfg1.N
      = Spec.dense
          (Spec.denseRelu
            (Spec.sage (V c main_v16) (V c main_v23) (V c main_arg5) (V c main_arg4) (V c main_v24))
            (V c main_arg7) (V c main_v25))
          (V c main_arg9) (V c main_v26) :=
  (dat1 V c).arrAt_eq_of_cover 9 (Epilogue.layersOf V c) (fun t _ => Epilogue.flushed_layers V c t)
    Epilogue.covered

end Cert.KernelIdeal.Region

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.HostK0.lean ====
/-
  The host operations before the first pallas_call, read at the buffers its windows stage.

  No host operation before the call writes an argument array, so the three argument windows find the launch
  contents. The bias row is the bias vector reshaped [128] → [1,128]. The aggregated neighbour table is the product
  of the scatter-add (at the destination indices) of the rows taken from the feature table at the source indices
  with the broadcast reciprocal 1 / max(deg, 1); with every source index below the table's row count the take
  composite (wrap of negatives, gather, range mask, select against a fill) is the plain gather.
-/
import proofs.«425123_j84121229460234_1_alg».proof.Proof.Gen.KernelIdeal.Frame
import proofs.«425123_j84121229460234_1_alg».proof.Proof.Net
import proofs.«425123_j84121229460234_1_alg».proof.Proof.LibTake

noncomputable section

namespace Cert.KernelIdeal.HostK

open Idealize.ShloMosaic Idealize.ShloMosaic.TcCoe Idealize.SL.Sem Cert.KernelIdeal Cert.KernelIdeal.Gen
open Cert.KernelIdeal.Facts₀ Cert.KernelIdeal.Facts

/-- A buffer that no operation of a stretch writes holds after the stretch what it held before. -/
local macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section
variable {Val : EltTy → Type}

/-- Contents moved to a buffer's own type and back are the contents. -/
theorem ofBuf_toBuf {T : BufTy} (x : StableHlo.TRef sig T) (v : T.Contents Val) : x.ofBuf (x.toBuf v) = v := by
  obtain ⟨r, h, h2, h3⟩ := x
  subst h
  rfl
end

/-- The source indices read at their own type. -/
theorem read_arg11 (U : Valuation τ sig (Elt Ideal)) :
    (StableHlo.TRef.of main_arg11 rfl (by decide) rfl : StableHlo.TRef sig ⟨S1600000, .i32⟩).ofBuf (U (Proc.devRef .tc main_arg11))
      = U (Proc.devRef .tc main_arg11) := rfl

/-- The feature table read at its own type. -/
theorem read_arg0 (U : Valuation τ sig (Elt Ideal)) :
    (StableHlo.TRef.of main_arg0 rfl (by decide) rfl : StableHlo.TRef sig ⟨S100000x64, .f32⟩).ofBuf (U (Proc.devRef .tc main_arg0))
      = U (Proc.devRef .tc main_arg0) := rfl

/-- The taken rows written at their own type. -/
theorem write_v8 (v : FVec Ideal S1600000x64 .f32) :
    ((StableHlo.TRef.of main_v8 rfl (by decide) rfl : StableHlo.TRef sig ⟨S1600000x64, .f32⟩).toBuf (Val := Elt Ideal) v
      : FVec Ideal S1600000x64 .f32) = v := rfl

/-- The take composite over the shapes of this take (rows of the [100000, 64] table at 1600000 indices): with every
    index below 100000 nothing wraps, every row passes the range test, and the select returns the gathered rows. -/
theorem take64 (idx : IVec S1600000 32) (hidx : ∀ r, (idx r).toNat < 100000) (x : FVec Ideal S100000x64 .f32) :
    select
      (broadcastInDim S1600000x64 ![0] Facts₀.bcast_S1600000_S1600000x64_0
        (Host.reduce IntOp.andi
          (andi
            (cmpi .sge
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![] Facts₀.bcast_S_S1600000x1 (constantI S_ 32 0#32)))
            (cmpi .sle
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![0, 1] Facts₀.bcast_S1x1_S1600000x1_0_1
                (broadcastInDim S1x1 ![1] Facts₀.bcast_S1_S1x1_1 (constantI S1 32 99999#32)))))
          (constantI S_ 1 1#1) Facts₀.reducesTo_S1600000x1_S1600000_d1 Facts₀.h_S_))
      (Host.gather gather_S100000x64_S1600000x1_S1600000x64_1_0_n_n_0_1_164 x
        (broadcastInDim S1600000x1 ![0] Facts₀.bcast_S1600000_S1600000x1_0
          (select (cmpi .slt idx (broadcastInDim S1600000 ![] Facts₀.bcast_S_S1600000 (constantI S_ 32 0#32)))
            (addi idx (broadcastInDim S1600000 ![] Facts₀.bcast_S_S1600000 (constantI S_ 32 100000#32))) idx)))
      (broadcastInDim S1600000x64 ![] Facts₀.bcast_S_S1600000x64 (constant (F := Ideal) S_ .f32 0x7FC00000#32))
    = Host.gather gather_S100000x64_S1600000x1_S1600000x64_1_0_n_n_0_1_164 x
        (broadcastInDim S1600000x1 ![0] Facts₀.bcast_S1600000_S1600000x1_0 idx) :=
  Cert.LibTake.take_rows_eq (R := 1600000) (N := 100000) (C := 64) (by norm_num) idx hidx
    gather_S100000x64_S1600000x1_S1600000x64_1_0_n_n_0_1_164 x
    (broadcastInDim S1600000x64 ![] Facts₀.bcast_S_S1600000x64 (constant (F := Ideal) S_ .f32 0x7FC00000#32))
    Facts₀.bcast_S_S1600000 Facts₀.bcast_S_S1600000 Facts₀.bcast_S1600000_S1600000x1_0 Facts₀.bcast_S_S1600000x1
    Facts₀.bcast_S1_S1x1_1 Facts₀.bcast_S1x1_S1600000x1_0_1 Facts₀.reducesTo_S1600000x1_S1600000_d1 Facts₀.h_S_
    Facts₀.bcast_S1600000_S1600000x64_0

set_option maxHeartbeats 400000 in
/-- The middle stretch is the take of the feature table's rows at the source indices; with every index in range it
    leaves the plain gather. -/
theorem v8_stretch (U : Valuation τ sig (Elt Ideal))
    (hU : ∀ r, ((U (Proc.devRef .tc main_arg11) : IVec S1600000 32) r).toNat < 100000) :
    (StableHlo.after hostOps0_1 U (Proc.devRef .tc main_v8) : FVec Ideal S1600000x64 .f32)
      = Host.gather gather_S100000x64_S1600000x1_S1600000x64_1_0_n_n_0_1_164 (U (Proc.devRef .tc main_arg0) : FVec Ideal S100000x64 .f32)
          (broadcastInDim S1600000x1 ![0] Facts₀.bcast_S1600000_S1600000x1_0 (U (Proc.devRef .tc main_arg11) : IVec S1600000 32)) := by
  dsimp only [hostOps0_1]
  after_results_simp
  simp only [ofBuf_toBuf, read_arg11, read_arg0, write_v8]
  exact take64 (U (Proc.devRef .tc main_arg11)) hU (U (Proc.devRef .tc main_arg0))

/-- The last stretch leaves the bias vector reshaped to one row. -/
theorem v15_stretch (U : Valuation τ sig (Elt Ideal)) :
    StableHlo.after hostOps0_2 U (Proc.devRef .tc main_v15)
      = shapeCast S1x128 (U (Proc.devRef .tc main_arg3)) Facts₀.shapeCasts_S128_S1x128 := by
  dsimp only [hostOps0_2]
  after_results
  rfl

/-- The last stretch leaves the scatter-add of the taken rows times the broadcast reciprocal degree. -/
theorem v14_stretch (U : Valuation τ sig (Elt Ideal)) :
    (StableHlo.after hostOps0_2 U (Proc.devRef .tc main_v14) : FVec Ideal S100000x64 .f32)
      = mulf
          (Host.scatterAdd scatter_S100000x64_S1600000x1_S1600000x64_1_0_0_1
            (broadcastInDim S100000x64 ![] Facts₀.bcast_S_S100000x64 (constant (F := Ideal) S_ .f32 0x00000000#32))
            (broadcastInDim S1600000x1 ![0] Facts₀.bcast_S1600000_S1600000x1_0 (U (Proc.devRef .tc main_arg12) : IVec S1600000 32))
            (U (Proc.devRef .tc main_v8) : FVec Ideal S1600000x64 .f32))
          (broadcastInDim S100000x64 ![0, 1] Facts₀.bcast_S100000x1_S100000x64_0_1
            (broadcastInDim S100000x1 ![0] Facts₀.bcast_S100000_S100000x1_0 (U (Proc.devRef .tc main_v7) : FVec Ideal S100000 .f32))) := by
  dsimp only [hostOps0_2]
  after_results

/-- The first stretch leaves the reciprocal of the degree cut off at one. -/
theorem v7_stretch (U : Valuation τ sig (Elt Ideal)) :
    (StableHlo.after hostOps0 U (Proc.devRef .tc main_v7) : FVec Ideal S100000 .f32)
      = Net.invDeg (U (Proc.devRef .tc main_arg12) : IVec S1600000 32) := by
  dsimp only [hostOps0]
  after_results
  rfl

variable (m : (ℓ : Loc nD τ sig) → Buf (Elt Ideal) ℓ) (ρ : Dev nD → PrngReg)

/-- The first pallas_call finds the feature table as launched. -/
theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c.tc : Thread nD τ).loc main_arg0) := rfl
/-- … and the neighbour weights as launched. -/
theorem W3_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) := by stretch_keeps hostOps0_2
    _ = W1 m ρ c (Proc.devRef .tc main_arg1) := by stretch_keeps hostOps0_1
    _ = W0 m ρ c (Proc.devRef .tc main_arg1) := by stretch_keeps hostOps0
    _ = m ((c.tc : Thread nD τ).loc main_arg1) := rfl
/-- … and the self weights as launched. -/
theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c.tc : Thread nD τ).loc main_arg2) := rfl
/-- The bias vector is untouched before the last stretch. -/
theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := by stretch_keeps hostOps0_1
    _ = W0 m ρ c (Proc.devRef .tc main_arg3) := by stretch_keeps hostOps0
    _ = m ((c.tc : Thread nD τ).loc main_arg3) := rfl
/-- The bias row the first pallas_call stages is the bias vector laid out as one row. -/
theorem W3_v15 (c : Dev nD) :
    W3 m ρ c (Proc.devRef .tc main_v15) = shapeCast S1x128 (m ((c.tc : Thread nD τ).loc main_arg3)) Facts₀.shapeCasts_S128_S1x128 :=
  (v15_stretch (W2 m ρ c)).trans (congrArg (fun x => shapeCast S1x128 x Facts₀.shapeCasts_S128_S1x128) (W2_arg3 m ρ c))
/-- The first stretch leaves the source indices as launched. -/
theorem W1_arg11 (c : Dev nD) : W1 m ρ c (Proc.devRef .tc main_arg11) = m ((c.tc : Thread nD τ).loc main_arg11) :=
  calc W1 m ρ c (Proc.devRef .tc main_arg11)
    _ = W0 m ρ c (Proc.devRef .tc main_arg11) := by stretch_keeps hostOps0
    _ = m ((c.tc : Thread nD τ).loc main_arg11) := rfl
/-- … and the feature table as launched. -/
theorem W1_arg0 (c : Dev nD) : W1 m ρ c (Proc.devRef .tc main_arg0) = m ((c.tc : Thread nD τ).loc main_arg0) :=
  calc W1 m ρ c (Proc.devRef .tc main_arg0)
    _ = W0 m ρ c (Proc.devRef .tc main_arg0) := by stretch_keeps hostOps0
    _ = m ((c.tc : Thread nD τ).loc main_arg0) := rfl
/-- The destination indices are untouched before the last stretch. -/
theorem W2_arg12 (c : Dev nD) : W2 m ρ c (Proc.devRef .tc main_arg12) = m ((c.tc : Thread nD τ).loc main_arg12) :=
  calc W2 m ρ c (Proc.devRef .tc main_arg12)
    _ = W1 m ρ c (Proc.devRef .tc main_arg12) := by stretch_keeps hostOps0_1
    _ = W0 m ρ c (Proc.devRef .tc main_arg12) := by stretch_keeps hostOps0
    _ = m ((c.tc : Thread nD τ).loc main_arg12) := rfl
/-- Before the last stretch the reciprocal-degree buffer holds 1 / max(deg, 1) of the launched destination indices. -/
theorem W2_v7 (c : Dev nD) :
    (W2 m ρ c (Proc.devRef .tc main_v7) : FVec Ideal S100000 .f32) = Net.invDeg (m ((c.tc : Thread nD τ).loc main_arg12)) :=
  calc (W2 m ρ c (Proc.devRef .tc main_v7) : FVec Ideal S100000 .f32)
    _ = W1 m ρ c (Proc.devRef .tc main_v7) := by stretch_keeps hostOps0_1
    _ = Net.invDeg (W0 m ρ c (Proc.devRef .tc main_arg12)) := v7_stretch (W0 m ρ c)
    _ = Net.invDeg (m ((c.tc : Thread nD τ).loc main_arg12)) := rfl
/-- Before the last stretch the taken-rows buffer holds the gather of the launched feature table at the launched
    source indices, when these are in range. -/
theorem W2_v8 (c : Dev nD)
    (hsrc : ∀ r, ((m ((c.tc : Thread nD τ).loc main_arg11) : IVec S1600000 32) r).toNat < 100000) :
    (W2 m ρ c (Proc.devRef .tc main_v8) : FVec Ideal S1600000x64 .f32)
      = Host.gather gather_S100000x64_S1600000x1_S1600000x64_1_0_n_n_0_1_164 (m ((c.tc : Thread nD τ).loc main_arg0))
          (broadcastInDim S1600000x1 ![0] Facts₀.bcast_S1600000_S1600000x1_0 (m ((c.tc : Thread nD τ).loc main_arg11))) := by
  have h := v8_stretch (W1 m ρ c) (fun r => by rw [W1_arg11]; exact hsrc r)
  rw [W1_arg11, W1_arg0] at h
  exact h
/-- With every source index in range, the take composite is the plain gather, so the aggregated neighbour table the
    first pallas_call stages is the mean of the incoming neighbours' feature rows. -/
theorem W3_v14 (c : Dev nD)
    (hsrc : ∀ r, ((m ((c.tc : Thread nD τ).loc main_arg11) : IVec S1600000 32) r).toNat < 100000) :
    W3 m ρ c (Proc.devRef .tc main_v14)
      = Net.mean64 (m ((c.tc : Thread nD τ).loc main_arg0)) (m ((c.tc : Thread nD τ).loc main_arg11)) (m ((c.tc : Thread nD τ).loc main_arg12)) := by
  refine (v14_stretch (W2 m ρ c)).trans ?_
  rw [W2_v8 m ρ c hsrc, W2_v7 m ρ c, W2_arg12 m ρ c]
  rfl

end Cert.KernelIdeal.HostK

end
-- ==== Proof.HostK1.lean ====
/-
  What the second pallas_call finds in the buffers its windows stage, in terms of the launch memory and of the
  first call's output table.

  Between the two calls the host runs a take of rows of the first call's output at the source indices (wrap of
  negative indices, gather, range mask, select against a fill) and then scatter-adds the taken rows at the
  destination indices and scales each node's row by 1 / max(deg, 1); it also lays three bias vectors out as one
  row each. None of these operations writes the first call's output or an argument array, so those are found as
  they were left; the bias rows are reshapes; and with every source index in range the take is the plain gather,
  which makes the scaled scatter-add the mean of the incoming neighbours' rows.
-/
import proofs.«425123_j84121229460234_1_alg».proof.Proof.Gen.KernelIdeal.Frame
import proofs.«425123_j84121229460234_1_alg».proof.Proof.Net
import proofs.«425123_j84121229460234_1_alg».proof.Proof.LibTake

noncomputable section

namespace Cert.KernelIdeal.HostK

open Idealize.ShloMosaic Idealize.ShloMosaic.TcCoe Idealize.SL.Sem Cert.KernelIdeal Cert.KernelIdeal.Gen
open Cert.KernelIdeal.Facts₀ Cert.KernelIdeal.Facts

variable (m : (ℓ : Loc nD τ sig) → Buf (Elt Ideal) ℓ) (ρ : Dev nD → PrngReg)

/-- A buffer that no operation of a stretch writes holds after the stretch what it held before it: every operation
    writes its own result buffer only, and that is another reference. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers the stretches between the calls leave alone -/

/-- No host operation between the calls writes the first call's output. -/
theorem W6_v16 (c : Dev nD) : W6 m ρ c (Proc.devRef .tc main_v16) = W4 m ρ c (Proc.devRef .tc main_v16) :=
  calc W6 m ρ c (Proc.devRef .tc main_v16)
    _ = W5 m ρ c (Proc.devRef .tc main_v16) := by keeps hostOps1_1
    _ = W4 m ρ c (Proc.devRef .tc main_v16) := by keeps hostOps1
theorem W6_arg4 (c : Dev nD) : W6 m ρ c (Proc.devRef .tc main_arg4) = m ((c.tc : Thread nD τ).loc main_arg4) :=
  ((W7_arr m ρ c 3).trans (((dat1 (V6 m ρ) c).arrAt_in 3 rfl _).trans (A_eq1 (V6 m ρ) c 3))).symm.trans (W7_main_arg4 m ρ c)
theorem W6_arg5 (c : Dev nD) : W6 m ρ c (Proc.devRef .tc main_arg5) = m ((c.tc : Thread nD τ).loc main_arg5) :=
  ((W7_arr m ρ c 2).trans (((dat1 (V6 m ρ) c).arrAt_in 2 rfl _).trans (A_eq1 (V6 m ρ) c 2))).symm.trans (W7_main_arg5 m ρ c)
theorem W6_arg7 (c : Dev nD) : W6 m ρ c (Proc.devRef .tc main_arg7) = m ((c.tc : Thread nD τ).loc main_arg7) :=
  ((W7_arr m ρ c 5).trans (((dat1 (V6 m ρ) c).arrAt_in 5 rfl _).trans (A_eq1 (V6 m ρ) c 5))).symm.trans (W7_main_arg7 m ρ c)
theorem W6_arg9 (c : Dev nD) : W6 m ρ c (Proc.devRef .tc main_arg9) = m ((c.tc : Thread nD τ).loc main_arg9) :=
  ((W7_arr m ρ c 7).trans (((dat1 (V6 m ρ) c).arrAt_in 7 rfl _).trans (A_eq1 (V6 m ρ) c 7))).symm.trans (W7_main_arg9 m ρ c)

/-! ## What the last stretch computes, over any contents before it -/

private theorem last_v24 (U : Valuation τ sig (Elt Ideal)) :
    (StableHlo.after (hostOps1_1 (F := Ideal)) U (Proc.devRef .tc main_v24) : FVec Ideal S1x128 .f32)
      = shapeCast S1x128 (U (Proc.devRef .tc main_arg6)) Facts₀.shapeCasts_S128_S1x128 := by
  after_results; rfl
private theorem last_v25 (U : Valuation τ sig (Elt Ideal)) :
    (StableHlo.after (hostOps1_1 (F := Ideal)) U (Proc.devRef .tc main_v25) : FVec Ideal S1x128 .f32)
      = shapeCast S1x128 (U (Proc.devRef .tc main_arg8)) Facts₀.shapeCasts_S128_S1x128 := by
  after_results; rfl
private theorem last_v26 (U : Valuation τ sig (Elt Ideal)) :
    (StableHlo.after (hostOps1_1 (F := Ideal)) U (Proc.devRef .tc main_v26) : FVec Ideal S1x64 .f32)
      = shapeCast S1x64 (U (Proc.devRef .tc main_arg10)) Facts₀.shapeCasts_S64_S1x64 := by
  after_results; rfl

private theorem last_v23 (U : Valuation τ sig (Elt Ideal)) :
    (StableHlo.after (hostOps1_1 (F := Ideal)) U (Proc.devRef .tc main_v23) : FVec Ideal S100000x128 .f32)
      = mulf (Host.scatterAdd scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 (U (Proc.devRef .tc main_arg12)))
            (U (Proc.devRef .tc main_v17)))
          (broadcastInDim S100000x128 ![0, 1] Facts₀.bcast_S100000x1_S100000x128_0_1
            (broadcastInDim S100000x1 ![0] Facts₀.bcast_S100000_S100000x1_0 (U (Proc.devRef .tc main_v7)))) := by
  after_results

/-- The first stretch leaves 1 / max(deg, 1) in its last buffer. -/
private theorem first_v7 (U : Valuation τ sig (Elt Ideal)) :
    (StableHlo.after (hostOps0 (F := Ideal)) U (Proc.devRef .tc main_v7) : FVec Ideal S100000 .f32)
      = Net.invDeg (U (Proc.devRef .tc main_arg12)) := by
  after_results; rfl

/-! ## The take between the calls -/

section
variable {Val : EltTy → Type}

/-- Contents moved to a buffer's own type and back are the contents. -/
private theorem ofBuf_toBuf {T : BufTy} (x : StableHlo.TRef sig T) (v : T.Contents Val) : x.ofBuf (x.toBuf v) = v := by
  obtain ⟨r, h, h2, h3⟩ := x
  subst h
  rfl
end

/-- The source indices read at their own type. -/
private theorem read_arg11 (U : Valuation τ sig (Elt Ideal)) :
    (StableHlo.TRef.of main_arg11 rfl (by decide) rfl : StableHlo.TRef sig ⟨S1600000, .i32⟩).ofBuf (U (Proc.devRef .tc main_arg11))
      = U (Proc.devRef .tc main_arg11) := rfl

/-- The first call's output table read at its own type. -/
private theorem read_v16 (U : Valuation τ sig (Elt Ideal)) :
    (StableHlo.TRef.of main_v16 rfl (by decide) rfl : StableHlo.TRef sig ⟨S100000x128, .f32⟩).ofBuf (U (Proc.devRef .tc main_v16))
      = U (Proc.devRef .tc main_v16) := rfl

/-- The taken rows written at their own type. -/
private theorem write_v17 (v : FVec Ideal S1600000x128 .f32) :
    ((StableHlo.TRef.of main_v17 rfl (by decide) rfl : StableHlo.TRef sig ⟨S1600000x128, .f32⟩).toBuf (Val := Elt Ideal) v
      : FVec Ideal S1600000x128 .f32) = v := rfl

/-- The take composite over the shapes of this take (rows of a [100000, 128] table at 1600000 indices): with every
    index below 100000 nothing wraps, every row passes the range test, and the select returns the gathered rows. -/
private theorem take128 (idx : IVec S1600000 32) (hidx : ∀ r, (idx r).toNat < 100000) (x : FVec Ideal S100000x128 .f32) :
    select
      (broadcastInDim S1600000x128 ![0] Facts₀.bcast_S1600000_S1600000x128_0
        (Host.reduce IntOp.andi
          (andi
            (cmpi .sge
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![] Facts₀.bcast_S_S1600000x1 (constantI S_ 32 0#32)))
            (cmpi .sle
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![0, 1] Facts₀.bcast_S1x1_S1600000x1_0_1
                (broadcastInDim S1x1 ![1] Facts₀.bcast_S1_S1x1_1 (constantI S1 32 99999#32)))))
          (constantI S_ 1 1#1) Facts₀.reducesTo_S1600000x1_S1600000_d1 Facts₀.h_S_))
      (Host.gather gather_S100000x128_S1600000x1_S1600000x128_1_0_n_n_0_1_1128 x
        (broadcastInDim S1600000x1 ![0] Facts₀.bcast_S1600000_S1600000x1_0
          (select (cmpi .slt idx (broadcastInDim S1600000 ![] Facts₀.bcast_S_S1600000 (constantI S_ 32 0#32)))
            (addi idx (broadcastInDim S1600000 ![] Facts₀.bcast_S_S1600000 (constantI S_ 32 100000#32))) idx)))
      (broadcastInDim S1600000x128 ![] Facts₀.bcast_S_S1600000x128 (constant (F := Ideal) S_ .f32 0x7FC00000#32))
    = Host.gather gather_S100000x128_S1600000x1_S1600000x128_1_0_n_n_0_1_1128 x
        (broadcastInDim S1600000x1 ![0] Facts₀.bcast_S1600000_S1600000x1_0 idx) :=
  Cert.LibTake.take_rows_eq (R := 1600000) (N := 100000) (C := 128) (by norm_num) idx hidx
    gather_S100000x128_S1600000x1_S1600000x128_1_0_n_n_0_1_1128 x
    (broadcastInDim S1600000x128 ![] Facts₀.bcast_S_S1600000x128 (constant (F := Ideal) S_ .f32 0x7FC00000#32))
    Facts₀.bcast_S_S1600000 Facts₀.bcast_S_S1600000 Facts₀.bcast_S1600000_S1600000x1_0 Facts₀.bcast_S_S1600000x1
    Facts₀.bcast_S1_S1x1_1 Facts₀.bcast_S1x1_S1600000x1_0_1 Facts₀.reducesTo_S1600000x1_S1600000_d1 Facts₀.h_S_
    Facts₀.bcast_S1600000_S1600000x128_0

set_option maxHeartbeats 400000 in
/-- The stretch right after the first call is the take of its output's rows at the source indices; with every index
    in range it leaves the plain gather. -/
private theorem take_v17 (U : Valuation τ sig (Elt Ideal))
    (hidx : ∀ r, ((U (Proc.devRef .tc main_arg11) : IVec S1600000 32) r).toNat < 100000) :
    (StableHlo.after (hostOps1 (F := Ideal)) U (Proc.devRef .tc main_v17) : FVec Ideal S1600000x128 .f32)
      = Host.gather gather_S100000x128_S1600000x1_S1600000x128_1_0_n_n_0_1_1128 (U (Proc.devRef .tc main_v16) : FVec Ideal S100000x128 .f32)
          (broadcastInDim S1600000x1 ![0] Facts₀.bcast_S1600000_S1600000x1_0 (U (Proc.devRef .tc main_arg11) : IVec S1600000 32)) := by
  dsimp only [hostOps1]
  after_results_simp
  simp only [ofBuf_toBuf, read_arg11, read_v16, write_v17]
  exact take128 (U (Proc.devRef .tc main_arg11)) hidx (U (Proc.devRef .tc main_v16))

/-! ## Buffers the stretches leave alone, down to the launch memory -/

private theorem W5_arg6 (c : Dev nD) : W5 m ρ c (Proc.devRef .tc main_arg6) = m ((c.tc : Thread nD τ).loc main_arg6) :=
  calc W5 m ρ c (Proc.devRef .tc main_arg6)
    _ = W6 m ρ c (Proc.devRef .tc main_arg6) := Eq.symm (by keeps hostOps1_1)
    _ = W7 m ρ c (Proc.devRef .tc main_arg6) := (W7_of_ne m ρ c main_arg6 (by decide)).symm
    _ = m ((c.tc : Thread nD τ).loc main_arg6) := W7_main_arg6 m ρ c
private theorem W5_arg8 (c : Dev nD) : W5 m ρ c (Proc.devRef .tc main_arg8) = m ((c.tc : Thread nD τ).loc main_arg8) :=
  calc W5 m ρ c (Proc.devRef .tc main_arg8)
    _ = W6 m ρ c (Proc.devRef .tc main_arg8) := Eq.symm (by keeps hostOps1_1)
    _ = W7 m ρ c (Proc.devRef .tc main_arg8) := (W7_of_ne m ρ c main_arg8 (by decide)).symm
    _ = m ((c.tc : Thread nD τ).loc main_arg8) := W7_main_arg8 m ρ c
private theorem W5_arg10 (c : Dev nD) : W5 m ρ c (Proc.devRef .tc main_arg10) = m ((c.tc : Thread nD τ).loc main_arg10) :=
  calc W5 m ρ c (Proc.devRef .tc main_arg10)
    _ = W6 m ρ c (Proc.devRef .tc main_arg10) := Eq.symm (by keeps hostOps1_1)
    _ = W7 m ρ c (Proc.devRef .tc main_arg10) := (W7_of_ne m ρ c main_arg10 (by decide)).symm
    _ = m ((c.tc : Thread nD τ).loc main_arg10) := W7_main_arg10 m ρ c
private theorem W5_arg11 (c : Dev nD) : W5 m ρ c (Proc.devRef .tc main_arg11) = m ((c.tc : Thread nD τ).loc main_arg11) :=
  calc W5 m ρ c (Proc.devRef .tc main_arg11)
    _ = W6 m ρ c (Proc.devRef .tc main_arg11) := Eq.symm (by keeps hostOps1_1)
    _ = W7 m ρ c (Proc.devRef .tc main_arg11) := (W7_of_ne m ρ c main_arg11 (by decide)).symm
    _ = m ((c.tc : Thread nD τ).loc main_arg11) := W7_main_arg11 m ρ c
private theorem W5_arg12 (c : Dev nD) : W5 m ρ c (Proc.devRef .tc main_arg12) = m ((c.tc : Thread nD τ).loc main_arg12) :=
  calc W5 m ρ c (Proc.devRef .tc main_arg12)
    _ = W6 m ρ c (Proc.devRef .tc main_arg12) := Eq.symm (by keeps hostOps1_1)
    _ = W7 m ρ c (Proc.devRef .tc main_arg12) := (W7_of_ne m ρ c main_arg12 (by decide)).symm
    _ = m ((c.tc : Thread nD τ).loc main_arg12) := W7_main_arg12 m ρ c
private theorem W4_arg11 (c : Dev nD) : W4 m ρ c (Proc.devRef .tc main_arg11) = m ((c.tc : Thread nD τ).loc main_arg11) :=
  calc W4 m ρ c (Proc.devRef .tc main_arg11)
    _ = W5 m ρ c (Proc.devRef .tc main_arg11) := Eq.symm (by keeps hostOps1)
    _ = m ((c.tc : Thread nD τ).loc main_arg11) := W5_arg11 m ρ c

/-- The reciprocal-degree buffer, written before the first call, still holds 1 / max(deg, 1) of the launched
    destination indices when the last stretch reads it. -/
private theorem W5_v7 (c : Dev nD) :
    (W5 m ρ c (Proc.devRef .tc main_v7) : FVec Ideal S100000 .f32) = Net.invDeg (m ((c.tc : Thread nD τ).loc main_arg12)) :=
  calc (W5 m ρ c (Proc.devRef .tc main_v7) : FVec Ideal S100000 .f32)
    _ = W4 m ρ c (Proc.devRef .tc main_v7) := by keeps hostOps1
    _ = W3 m ρ c (Proc.devRef .tc main_v7) := W4_of_ne m ρ c main_v7 (by decide)
    _ = W2 m ρ c (Proc.devRef .tc main_v7) := by keeps hostOps0_2
    _ = W1 m ρ c (Proc.devRef .tc main_v7) := by keeps hostOps0_1
    _ = Net.invDeg (W0 m ρ c (Proc.devRef .tc main_arg12)) := first_v7 (W0 m ρ c)
    _ = Net.invDeg (m ((c.tc : Thread nD τ).loc main_arg12)) := rfl

/-- After the take, the taken-rows buffer holds the gather of the first call's output at the launched source indices,
    when these are in range. -/
private theorem W5_v17 (c : Dev nD)
    (hsrc : ∀ r, ((m ((c.tc : Thread nD τ).loc main_arg11) : IVec S1600000 32) r).toNat < 100000) :
    (W5 m ρ c (Proc.devRef .tc main_v17) : FVec Ideal S1600000x128 .f32)
      = Host.gather gather_S100000x128_S1600000x1_S1600000x128_1_0_n_n_0_1_1128 (W4 m ρ c (Proc.devRef .tc main_v16))
          (broadcastInDim S1600000x1 ![0] Facts₀.bcast_S1600000_S1600000x1_0 (m ((c.tc : Thread nD τ).loc main_arg11))) := by
  have h := take_v17 (W4 m ρ c) (fun r => by rw [W4_arg11]; exact hsrc r)
  rw [W4_arg11] at h
  exact h

/-! ## The buffers the second call's windows stage -/

/-- The three bias rows the second pallas_call stages are the bias vectors laid out as one row each. -/
theorem W6_v24 (c : Dev nD) :
    W6 m ρ c (Proc.devRef .tc main_v24) = shapeCast S1x128 (m ((c.tc : Thread nD τ).loc main_arg6)) Facts₀.shapeCasts_S128_S1x128 :=
  (last_v24 (W5 m ρ c)).trans (by rw [W5_arg6])
theorem W6_v25 (c : Dev nD) :
    W6 m ρ c (Proc.devRef .tc main_v25) = shapeCast S1x128 (m ((c.tc : Thread nD τ).loc main_arg8)) Facts₀.shapeCasts_S128_S1x128 :=
  (last_v25 (W5 m ρ c)).trans (by rw [W5_arg8])
theorem W6_v26 (c : Dev nD) :
    W6 m ρ c (Proc.devRef .tc main_v26) = shapeCast S1x64 (m ((c.tc : Thread nD τ).loc main_arg10)) Facts₀.shapeCasts_S64_S1x64 :=
  (last_v26 (W5 m ρ c)).trans (by rw [W5_arg10])
/-- With every source index in range, the aggregated neighbour table the second pallas_call stages is the mean of the
    incoming neighbours' rows of the first call's output. -/
theorem W6_v23 (c : Dev nD)
    (hsrc : ∀ r, ((m ((c.tc : Thread nD τ).loc main_arg11) : IVec S1600000 32) r).toNat < 100000) :
    W6 m ρ c (Proc.devRef .tc main_v23)
      = Net.mean128 (W4 m ρ c (Proc.devRef .tc main_v16)) (m ((c.tc : Thread nD τ).loc main_arg11)) (m ((c.tc : Thread nD τ).loc main_arg12)) := by
  refine (last_v23 (W5 m ρ c)).trans ?_
  rw [W5_v17 m ρ c hsrc, W5_v7 m ρ c, W5_arg12 m ρ c]
  rfl

end Cert.KernelIdeal.HostK

end
-- ==== Proof.KernelValue.lean ====
/-
  The kernel program's result buffer is the network function of the launch contents.

  The result buffer is the second pallas_call's output array, which is the three fused layers of the arrays that
  call finds; of those, the row-indexed ones are the first pallas_call's output and its mean aggregation, and the
  first call's output is the first graph-convolution layer of the feature table and its mean aggregation. Every
  other array either call finds is an argument as launched or a bias vector laid out as a row.
-/
import proofs.«425123_j84121229460234_1_alg».proof.Proof.Gen.KernelIdeal.Frame
import proofs.«425123_j84121229460234_1_alg».proof.Proof.Net
import proofs.«425123_j84121229460234_1_alg».proof.Proof.Region0
import proofs.«425123_j84121229460234_1_alg».proof.Proof.Region1
import proofs.«425123_j84121229460234_1_alg».proof.Proof.HostK0
import proofs.«425123_j84121229460234_1_alg».proof.Proof.HostK1

noncomputable section

namespace Cert.KernelIdeal.KernelValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The first pallas_call leaves the first graph-convolution layer in its output array. -/
theorem first_layer (c : Dev nD)
    (hsrc : ∀ r, ((m ((c.tc : Thread nD τ).loc main_arg11) : IVec S1600000 32) r).toNat < 100000) :
    W4 m ρ c (Proc.devRef .tc main_v16)
      = Net.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12)) := by
  refine (W4_arr m ρ c 5).trans ?_
  rw [Region.final0 (V3 m ρ) c]
  show Spec.sage (W3 m ρ c (Proc.devRef .tc main_arg0)) (W3 m ρ c (Proc.devRef .tc main_v14))
      (W3 m ρ c (Proc.devRef .tc main_arg2)) (W3 m ρ c (Proc.devRef .tc main_arg1)) (W3 m ρ c (Proc.devRef .tc main_v15)) = _
  rw [HostK.W3_arg0, HostK.W3_v14 m ρ c hsrc, HostK.W3_arg2, HostK.W3_arg1, HostK.W3_v15]
  rfl

/-- The second pallas_call leaves the whole network's value in the result buffer. -/
theorem kernel_value (c : Dev nD)
    (hsrc : ∀ r, ((m ((c.tc : Thread nD τ).loc main_arg11) : IVec S1600000 32) r).toNat < 100000) :
    W7 m ρ c (Proc.devRef .tc main_v27)
      = Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W7_arr m ρ c 9).trans ?_
  rw [Region.final1 (V6 m ρ) c]
  show Spec.dense
      (Spec.denseRelu
        (Spec.sage (W6 m ρ c (Proc.devRef .tc main_v16)) (W6 m ρ c (Proc.devRef .tc main_v23))
          (W6 m ρ c (Proc.devRef .tc main_arg5)) (W6 m ρ c (Proc.devRef .tc main_arg4)) (W6 m ρ c (Proc.devRef .tc main_v24)))
        (W6 m ρ c (Proc.devRef .tc main_arg7)) (W6 m ρ c (Proc.devRef .tc main_v25)))
      (W6 m ρ c (Proc.devRef .tc main_arg9)) (W6 m ρ c (Proc.devRef .tc main_v26)) = _
  rw [HostK.W6_v23 m ρ c hsrc, HostK.W6_v16, HostK.W6_arg5, HostK.W6_arg4, HostK.W6_v24, HostK.W6_arg7, HostK.W6_v25,
    HostK.W6_arg9, HostK.W6_v26, first_layer m ρ c hsrc]
  rfl

end Cert.KernelIdeal.KernelValue

end
-- ==== Proof.RefMean.lean ====
/-
  The reference's two mean aggregations are the network's.

  The reference gathers the rows of a feature table at the source indices after adding 100000 to every
  negative one, adds the gathered rows up at the destination indices, and divides row p of the sum by
  max(deg p, 1), deg p the number of edges arriving at p. The network gathers at the source indices as
  they are and multiplies row p of the sum by 1 / max(deg p, 1). With every source index a natural number
  below 100000 no index is negative, so the two gathers are the same array; and since max(deg p, 1) is
  never 0, the quotient a / max(deg p, 1) is the product a · (1 / max(deg p, 1)) at every entry, the divisor
  and the reciprocal both being read at row p of the same degree vector. This holds for the 64-column
  input table and for the 128-column output of the first layer alike.
-/
import proofs.«425123_j84121229460234_1_alg».proof.Proof.Gen.ReferenceIdeal.Read
import proofs.«425123_j84121229460234_1_alg».proof.Proof.Net
import proofs.«425123_j84121229460234_1_alg».proof.Proof.LibTake

noncomputable section

namespace Cert.ReferenceIdeal.RefValue

open Idealize.ShloMosaic Idealize.ShloMosaic.ValueIdx Cert.ReferenceIdeal Cert.ReferenceIdeal.Read

/-- A vector over the rows, made a one-column table and then repeated along C columns, reads at (p, q) the vector's
    entry p. -/
private theorem bc_bc_apply {α : Type} {C : Nat} (v : (⟨1, ![100000]⟩ : Shape).Idx → α)
    (h1 : (⟨1, ![100000]⟩ : Shape).BroadcastsInDim ⟨2, ![100000, 1]⟩ ![0])
    (h2 : (⟨2, ![100000, 1]⟩ : Shape).BroadcastsInDim ⟨2, ![100000, C]⟩ ![0, 1])
    (i : (⟨2, ![100000, C]⟩ : Shape).Idx) :
    broadcastInDim ⟨2, ![100000, C]⟩ ![0, 1] h2 (broadcastInDim ⟨2, ![100000, 1]⟩ ![0] h1 v) i
      = v (fun a => match a with | ⟨0, _⟩ => ⟨(i 0).val, (i 0).isLt⟩) := by
  rw [broadcastInDim_apply _ h2 _ i (fun a => match a with
        | ⟨0, _⟩ => ⟨(i 0).val, (i 0).isLt⟩
        | ⟨1, _⟩ => ⟨0, Nat.one_pos⟩) (fun a => match a with
        | ⟨0, _⟩ => by show (i 0).val = if (100000 : Nat) = 1 then 0 else (i 0).val; rw [if_neg (by decide)]
        | ⟨1, _⟩ => by show 0 = if (1 : Nat) = 1 then 0 else (i 1).val; rw [if_pos rfl])]
  exact broadcastInDim_apply _ h1 v _ _ (fun a => match a with
        | ⟨0, _⟩ => by show (i 0).val = if (100000 : Nat) = 1 then 0 else (i 0).val; rw [if_neg (by decide)])

/-- Entry by entry, the quotient of a table by the row-wise cut-off count max(e, 1) is the product of the table with the
    row-wise reciprocal 1 / max(e, 1): both repeated columns read the same row entry d = max(e, 1), and a / d = a · (1 / d)
    because d is never 0. -/
private theorem quot_eq_prod {C : Nat} (A : FVec Ideal ⟨2, ![100000, C]⟩ .f32) (e one : FVec Ideal ⟨1, ![100000]⟩ .f32)
    (hone : ∀ j, one j = (1 : EReal))
    (h1 : (⟨1, ![100000]⟩ : Shape).BroadcastsInDim ⟨2, ![100000, 1]⟩ ![0])
    (h2 : (⟨2, ![100000, 1]⟩ : Shape).BroadcastsInDim ⟨2, ![100000, C]⟩ ![0, 1]) :
    Host.divf A (broadcastInDim ⟨2, ![100000, C]⟩ ![0, 1] h2 (broadcastInDim ⟨2, ![100000, 1]⟩ ![0] h1 (maximumf e one)))
      = mulf A (broadcastInDim ⟨2, ![100000, C]⟩ ![0, 1] h2
          (broadcastInDim ⟨2, ![100000, 1]⟩ ![0] h1 (Host.divf one (maximumf e one)))) := by
  funext i
  show Ideal.div (A i) _ = A i * _
  rw [bc_bc_apply, bc_bc_apply]
  show Ideal.div (A i) (max (e _) (one _)) = A i * Ideal.div (one _) (max (e _) (one _))
  rw [hone]
  exact (Cert.Spec.mul_one_div_max _ _).symm

/-- The single-precision literal 1.0 repeated along the rows is the extended real 1 at every row. -/
private theorem ones_apply (h : (⟨0, ![]⟩ : Shape).BroadcastsInDim ⟨1, ![100000]⟩ ![]) (j : (⟨1, ![100000]⟩ : Shape).Idx) :
    broadcastInDim ⟨1, ![100000]⟩ ![] h (constant (F := Ideal) ⟨0, ![]⟩ .f32 0x3F800000#32) j = (1 : EReal) :=
  Cert.Spec.ofBits_one

/-- With every source index in range the wrap of negative indices does nothing, and a quotient by max(deg, 1) is the
    product with its reciprocal: the reference's first aggregated neighbour table is the mean of the incoming neighbours'
    feature rows. -/
theorem ref_mean64 (x0 : (⟨S100000x64, .f32⟩ : BufTy).Contents (Elt Ideal))
    (x11 x12 : (⟨S1600000, .i32⟩ : BufTy).Contents (Elt Ideal))
    (hsrc : ∀ r, ((x11 : IVec S1600000 32) r).toNat < 100000) :
    val_main_v18 (F := Ideal) x0 x11 x12 = Net.mean64 x0 x11 x12 := by
  have hw : val_main_v4 (F := Ideal) x11 = x11 :=
    Cert.LibTake.wrap_id (R := 1600000) (N := 100000) (by norm_num) x11 hsrc _ _
  unfold val_main_v18 val_main_v17 val_main_v16 val_main_v15 val_main_v9 val_main_v6 val_main_v5
  rw [hw]
  exact quot_eq_prod _ _ _ (ones_apply _) _ _

/-- The same for the second aggregation, over the first layer's output. -/
theorem ref_mean128 (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x11 x12 : (⟨S1600000, .i32⟩ : BufTy).Contents (Elt Ideal))
    (hsrc : ∀ r, ((x11 : IVec S1600000 32) r).toNat < 100000) :
    val_main_v44 (F := Ideal) x0 x1 x2 x3 x11 x12
      = Net.mean128 (val_main_v25 (F := Ideal) x0 x1 x2 x3 x11 x12) x11 x12 := by
  have hw : val_main_v30 (F := Ideal) x11 = x11 :=
    Cert.LibTake.wrap_id (R := 1600000) (N := 100000) (by norm_num) x11 hsrc _ _
  unfold val_main_v44 val_main_v43 val_main_v42 val_main_v41 val_main_v35 val_main_v32 val_main_v31
  rw [hw]
  generalize val_main_v25 (F := Ideal) x0 x1 x2 x3 x11 x12 = y
  exact quot_eq_prod _ _ _ (ones_apply _) _ _

end Cert.ReferenceIdeal.RefValue

end
-- ==== Proof.RefValue.lean ====
/-
  The reference's result is the network function of its arguments.

  The reference computes each dense layer as host matrix products, a bias added to every row, and (but for the
  last layer) a cut-off at zero. Read at the entry (p, q), a matrix product is the sum over the contraction position k
  of the left factor at (p, k) times the right factor at (k, q); the bias, a vector of length C laid out as the one
  row of a [1, C] array and then repeated down the rows, is the vector's entry at q, and so is the [1, C] reshape of
  the vector read at (0, q), because the two have the same row-major position q; the cut-off is the maximum with 0,
  the word of all zero bits denoting 0. So each of the four layers, as a function of the array the layer before it
  produced, is the corresponding layer function of the network: the two graph-convolution layers
  max((x W_self + h W_neigh) + b, 0), the dense layer max(x W + b, 0), and the last layer x W + b. With the two mean
  aggregations identified with the network's, the four layers chain into the whole network.
-/
import proofs.«425123_j84121229460234_1_alg».proof.Proof.Gen.ReferenceIdeal.Read
import proofs.«425123_j84121229460234_1_alg».proof.Proof.Net
import proofs.«425123_j84121229460234_1_alg».proof.Proof.RefMean

noncomputable section

namespace Cert.ReferenceIdeal.RefValue

open Idealize.ShloMosaic Idealize.ShloMosaic.ValueIdx Cert.ReferenceIdeal Cert.ReferenceIdeal.Read

/-! ## The bias row -/

/-- A vector of length 128 reshaped to one row of 128 columns, read at (0, q), is the vector at q: both sit at the
    row-major position q. -/
theorem bias_row128 (b : FVec Ideal S128 .f32) (hc : S128.ShapeCasts S1x128) (q : Fin 128) :
    shapeCast S1x128 b hc (ix2 (0 : Fin 1) q) = b (ix1 q) := by
  refine shapeCast_apply b hc (ix2 (0 : Fin 1) q) (ix1 q) ?_
  rw [Shape.rowMajor_val_one, Shape.rowMajor_val_two]
  show q.val = 0 * 128 + q.val
  omega

/-- The same for a vector of length 64. -/
theorem bias_row64 (b : FVec Ideal S64 .f32) (hc : S64.ShapeCasts S1x64) (q : Fin 64) :
    shapeCast S1x64 b hc (ix2 (0 : Fin 1) q) = b (ix1 q) := by
  refine shapeCast_apply b hc (ix2 (0 : Fin 1) q) (ix1 q) ?_
  rw [Shape.rowMajor_val_one, Shape.rowMajor_val_two]
  show q.val = 0 * 64 + q.val
  omega

/-! ## The four layers, each as a function of the stage before it -/

/-- The first graph-convolution layer: at (p, q) the reference adds the product of row p of the features with column q
    of the self weights, the product of row p of the aggregated neighbour table with column q of the neighbour
    weights, and the bias at q, and cuts off at zero. -/
theorem ref_layer1
    (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x11 x12 : (⟨S1600000, .i32⟩ : BufTy).Contents (Elt Ideal))
    (hc : S128.ShapeCasts S1x128) :
    val_main_v25 (F := Ideal) x0 x1 x2 x3 x11 x12
      = Spec.sage x0 (val_main_v18 (F := Ideal) x0 x11 x12) x2 x1 (shapeCast S1x128 x3 hc) := by
  funext i
  obtain ⟨p, q, rfl⟩ : ∃ (p : Fin 100000) (q : Fin 128), i = ix2 p q := ⟨i 0, i 1, eq_ix2 i⟩
  rw [Spec.sage_apply]
  rw [val_main_v25_apply, val_main_v24_apply, val_main_v21_apply, val_main_v19_apply, val_main_v20_apply,
    val_main_v23_apply, val_main_v22_apply, val_main_call0_v0_apply, val_main_call0_cst_apply]
  generalize val_main_v18 (F := Ideal) x0 x11 x12 = h
  have l19 : ∀ k : Fin 64, lidx_main_v19 (ix2 p q) k = ix2 p k := fun k =>
    funext fun a => Fin.ext (by match a with | ⟨0, _⟩ => rfl | ⟨1, _⟩ => rfl)
  have r19 : ∀ k : Fin 64, ridx_main_v19 (ix2 p q) k = ix2 k q := fun k =>
    funext fun a => Fin.ext (by match a with | ⟨0, _⟩ => rfl | ⟨1, _⟩ => rfl)
  have l20 : ∀ k : Fin 64, lidx_main_v20 (ix2 p q) k = ix2 p k := fun k =>
    funext fun a => Fin.ext (by match a with | ⟨0, _⟩ => rfl | ⟨1, _⟩ => rfl)
  have r20 : ∀ k : Fin 64, ridx_main_v20 (ix2 p q) k = ix2 k q := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  simp only [l19, r19, l20, r20, eb, bias_row128, Spec.rowCol, Ideal.maximumf_def, Ideal.addf_def, Ideal.ofBits_def,
    Ideal.ofBits_zero_f32]

/-- The second graph-convolution layer, over the first layer's output and its aggregated neighbour table. -/
theorem ref_layer2
    (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x11 x12 : (⟨S1600000, .i32⟩ : BufTy).Contents (Elt Ideal))
    (hc : S128.ShapeCasts S1x128) :
    val_main_v51 (F := Ideal) x0 x1 x2 x3 x4 x5 x6 x11 x12
      = Spec.sage (val_main_v25 (F := Ideal) x0 x1 x2 x3 x11 x12) (val_main_v44 (F := Ideal) x0 x1 x2 x3 x11 x12) x5 x4
          (shapeCast S1x128 x6 hc) := by
  funext i
  obtain ⟨p, q, rfl⟩ : ∃ (p : Fin 100000) (q : Fin 128), i = ix2 p q := ⟨i 0, i 1, eq_ix2 i⟩
  rw [Spec.sage_apply]
  rw [val_main_v51_apply, val_main_v50_apply, val_main_v47_apply, val_main_v45_apply, val_main_v46_apply,
    val_main_v49_apply, val_main_v48_apply, val_main_call1_v0_apply, val_main_call1_cst_apply]
  generalize val_main_v25 (F := Ideal) x0 x1 x2 x3 x11 x12 = y
  generalize val_main_v44 (F := Ideal) x0 x1 x2 x3 x11 x12 = h
  have l45 : ∀ k : Fin 128, lidx_main_v45 (ix2 p q) k = ix2 p k := fun k =>
    funext fun a => Fin.ext (by match a with | ⟨0, _⟩ => rfl | ⟨1, _⟩ => rfl)
  have r45 : ∀ k : Fin 128, ridx_main_v45 (ix2 p q) k = ix2 k q := fun k =>
    funext fun a => Fin.ext (by match a with | ⟨0, _⟩ => rfl | ⟨1, _⟩ => rfl)
  have l46 : ∀ k : Fin 128, lidx_main_v46 (ix2 p q) k = ix2 p k := fun k =>
    funext fun a => Fin.ext (by match a with | ⟨0, _⟩ => rfl | ⟨1, _⟩ => rfl)
  have r46 : ∀ k : Fin 128, ridx_main_v46 (ix2 p q) k = ix2 k q := fun k =>
    funext fun a => Fin.ext (by match a with | ⟨0, _⟩ => rfl | ⟨1, _⟩ => rfl)
  have eb : idx_main_v48 (idx_main_v49 (ix2 p q)) = ix1 q :=
    funext fun a => Fin.ext (by match a with | ⟨0, _⟩ => rfl)
  simp only [l45, r45, l46, r46, eb, bias_row128, Spec.rowCol, Ideal.maximumf_def, Ideal.addf_def, Ideal.ofBits_def,
    Ideal.ofBits_zero_f32]

/-- The dense layer with the cut-off at zero, over the second layer's output. -/
theorem ref_layer3
    (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x11 x12 : (⟨S1600000, .i32⟩ : BufTy).Contents (Elt Ideal))
    (hc : S128.ShapeCasts S1x128) :
    val_main_v56 (F := Ideal) x0 x1 x2 x3 x4 x5 x6 x7 x8 x11 x12
      = Spec.denseRelu (val_main_v51 (F := Ideal) x0 x1 x2 x3 x4 x5 x6 x11 x12) x7 (shapeCast S1x128 x8 hc) := by
  funext i
  obtain ⟨p, q, rfl⟩ : ∃ (p : Fin 100000) (q : Fin 128), i = ix2 p q := ⟨i 0, i 1, eq_ix2 i⟩
  rw [Spec.denseRelu_apply]
  rw [val_main_v56_apply, val_main_v55_apply, val_main_v52_apply, val_main_v54_apply, val_main_v53_apply,
    val_main_call2_v0_apply, val_main_call2_cst_apply]
  generalize val_main_v51 (F := Ideal) x0 x1 x2 x3 x4 x5 x6 x11 x12 = y
  have l52 : ∀ k : Fin 128, lidx_main_v52 (ix2 p q) k = ix2 p k := fun k =>
    funext fun a => Fin.ext (by match a with | ⟨0, _⟩ => rfl | ⟨1, _⟩ => rfl)
  have r52 : ∀ k : Fin 128, ridx_main_v52 (ix2 p q) k = ix2 k q := fun k =>
    funext fun a => Fin.ext (by match a with | ⟨0, _⟩ => rfl | ⟨1, _⟩ => rfl)
  have eb : idx_main_v53 (idx_main_v54 (ix2 p q)) = ix1 q :=
    funext fun a => Fin.ext (by match a with | ⟨0, _⟩ => rfl)
  simp only [l52, r52, eb, bias_row128, Spec.rowCol, Ideal.maximumf_def, Ideal.addf_def, Ideal.ofBits_def,
    Ideal.ofBits_zero_f32]

/-- The last, plain dense layer, over the third layer's output. -/
theorem ref_layer4
    (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (x11 x12 : (⟨S1600000, .i32⟩ : BufTy).Contents (Elt Ideal))
    (hc : S64.ShapeCasts S1x64) :
    val_main_v60 (F := Ideal) x0 x1 x2 x3 x4 x5 x6 x7 x8 x9 x10 x11 x12
      = Spec.dense (val_main_v56 (F := Ideal) x0 x1 x2 x3 x4 x5 x6 x7 x8 x11 x12) x9 (shapeCast S1x64 x10 hc) := by
  funext i
  obtain ⟨p, q, rfl⟩ : ∃ (p : Fin 100000) (q : Fin 64), i = ix2 p q := ⟨i 0, i 1, eq_ix2 i⟩
  rw [Spec.dense_apply]
  rw [val_main_v60_apply, val_main_v57_apply, val_main_v59_apply, val_main_v58_apply]
  generalize val_main_v56 (F := Ideal) x0 x1 x2 x3 x4 x5 x6 x7 x8 x11 x12 = y
  have l57 : ∀ k : Fin 128, lidx_main_v57 (ix2 p q) k = ix2 p k := fun k =>
    funext fun a => Fin.ext (by match a with | ⟨0, _⟩ => rfl | ⟨1, _⟩ => rfl)
  have r57 : ∀ k : Fin 128, ridx_main_v57 (ix2 p q) k = ix2 k q := fun k =>
    funext fun a => Fin.ext (by match a with | ⟨0, _⟩ => rfl | ⟨1, _⟩ => rfl)
  have eb : idx_main_v58 (idx_main_v59 (ix2 p q)) = ix1 q :=
    funext fun a => Fin.ext (by match a with | ⟨0, _⟩ => rfl)
  simp only [l57, r57, eb, bias_row64, Spec.rowCol, Ideal.addf_def]

/-! ## The whole reference -/

/-- With every source index in range the wrap of negative indices does nothing, the quotient by max(deg, 1) is the product
    with its reciprocal, and each host matrix product read at an entry is the sum over the contraction position: the
    reference's last stage is the network function. -/
theorem ref_value
    (x0 : (⟨S100000x64, .f32⟩ : BufTy).Contents (Elt Ideal)) (x1 x2 : (⟨S64x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (x11 x12 : (⟨S1600000, .i32⟩ : BufTy).Contents (Elt Ideal))
    (hsrc : ∀ r, ((x11 : IVec S1600000 32) r).toNat < 100000) :
    val_main_v60 (F := Ideal) x0 x1 x2 x3 x4 x5 x6 x7 x8 x9 x10 x11 x12
      = Net.net x0 x1 x2 x3 x4 x5 x6 x7 x8 x9 x10 x11 x12 := by
  unfold Net.net Net.layer1
  rw [ref_layer4 x0 x1 x2 x3 x4 x5 x6 x7 x8 x9 x10 x11 x12 Cert.KernelIdeal.Gen.shapeCasts_S64_S1x64,
    ref_layer3 x0 x1 x2 x3 x4 x5 x6 x7 x8 x11 x12 Cert.KernelIdeal.Gen.shapeCasts_S128_S1x128,
    ref_layer2 x0 x1 x2 x3 x4 x5 x6 x11 x12 Cert.KernelIdeal.Gen.shapeCasts_S128_S1x128,
    ref_mean128 x0 x1 x2 x3 x11 x12 hsrc,
    ref_layer1 x0 x1 x2 x3 x11 x12 Cert.KernelIdeal.Gen.shapeCasts_S128_S1x128,
    ref_mean64 x0 x11 x12 hsrc]

end Cert.ReferenceIdeal.RefValue

end
-- ==== Proof.SrcRange.lean ====
/-
  The precondition's last conjunct, decoded: every source index is a natural number below 100000.

  The precondition is a rank-0 array of one-bit words equal to 1: a chain of conjunctions whose last member is the
  conjunction, over all 1600000 entries w of the source-index array, of (0 ≤ w) and (w < 100000), both read as signed
  32-bit words. A conjunction of one-bit words is 1 only if both members are 1, and a conjunction over an array is 1
  only if every entry is 1; so at every entry both comparisons hold. A signed word that is non-negative has its top
  bit clear, hence its signed and unsigned readings agree, and its unsigned reading is then below 100000 as well.
  No other member of the chain (the finiteness of the float arrays) is used.
-/
import proofs.«425123_j84121229460234_1_alg».proof.Defs
import proofs.«425123_j84121229460234_1_alg».proof.Proof.Gen.KernelIdeal
import proofs.«425123_j84121229460234_1_alg».proof.Proof.Gen.Pre_finite_inputs
import Idealize.ShloMosaic.Lib.StableHlo.Predicate
import Idealize.ShloMosaic.Lib.ReduceAll

noncomputable section

namespace Cert.SrcRange

open Idealize.ShloMosaic Idealize.ShloMosaic.TcCoe Idealize.SL.Sem Cert.KernelIdeal

/-- A 32-bit word w with 0 ≤ w and w < n as signed words (n below 2³¹) satisfies w < n as an unsigned word. -/
private theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hw : 2 * w.toNat < 2 ^ 32 := BitVec.toInt_pos_iff.1 h0
  rw [BitVec.toInt_eq_toNat_of_lt hw, StableHlo.Predicate.toInt_ofNat_small n hn] at h1
  exact_mod_cast h1

/-- The last stretch of the precondition's chain being 1 (at its one index) puts every source index below 100000:
    only its last conjunct, the conjunction over all entries of the two signed comparisons, is read.
    (A rank-0 array has one index, so the conjunction over the array is a conjunction over all its entries.) -/
private theorem part3_src {F : FTy → Type} [FloatOps F] [Cert.Pre_finite_inputs.Facts]
    (a11 : IVec Cert.Pre_finite_inputs.S1600000 32) (v48 : IVec Cert.Pre_finite_inputs.S_ 1)
    (v49 v50 : FVec F Cert.Pre_finite_inputs.S64 .f32) (j : Cert.Pre_finite_inputs.S_.Idx)
    (e : Cert.Pre_finite_inputs.fn_part3 (F := F) a11 v48 v49 v50 j = 1#1)
    (r : Cert.Pre_finite_inputs.S1600000.Idx) : (a11 r).toNat < 100000 := by
  haveI : Subsingleton Cert.Pre_finite_inputs.S_.Idx := ⟨fun a b => funext fun d => d.elim0⟩
  dsimp only [Cert.Pre_finite_inputs.fn_part3] at e
  have e2 := (IntOp.andi_eq_one.1 e).2
  have e3 := Host.reduce_andi_all _ _ _ _ j e2 r
  obtain ⟨h0, h1⟩ := IntOp.andi_eq_one.1 e3
  exact toNat_lt_of_signed _ 100000 (by norm_num) h0 h1

/-- Under the precondition every entry of the source-index array, read as an unsigned word, is below 100000
    (it is non-negative and below 100000 as a signed word). -/
theorem src_lt (m : (ℓ : Loc nD τ sig) → Buf (Elt Ideal) ℓ) (h : Cert.Pre_KernelIdeal m) (c : Dev nD) :
    ∀ r, ((m ((c.tc : Thread nD τ).loc main_arg11) : IVec S1600000 32) r).toNat < 100000 := by
  intro r
  have e := congrFun (h c) (fun a => a.elim0)
  dsimp only [Cert.Pre_finite_inputs.fn, Cert.Pre_finite_inputs.fn_part1, Cert.Pre_finite_inputs.fn_part2] at e
  exact part3_src _ _ _ _ _ e r

end Cert.SrcRange

end
-- ==== Proof.lean ====
/-
  The kernel program and its reference compute the same network, over the extended reals.

  Both programs gather feature rows at the source indices, scatter-add them at the destination indices, and scale by
  the reciprocal node degree (cut off at 1) to get the mean of each node's incoming neighbours; both then apply a
  graph-convolution layer, repeat the aggregation on its output, and apply a second graph-convolution layer, a dense
  layer cut off at zero and a plain dense layer. They differ in three ways, none of which changes an extended real:
  the kernel program multiplies by 1 / max(deg, 1) where the reference divides by max(deg, 1), and the divisor is never
  zero; the kernel program rounds matrix-product operands to a narrower format, which is the identity on extended
  reals; and the kernel program computes the dense layers in blocks of 5000 rows, each row of a layer depending only on
  the same row of its inputs. A fourth difference does change values: the kernel program's gather replaces a row whose
  index lies outside the table by a fill pattern where the reference's gather clamps the index. The precondition
  therefore asks every source index to lie in the table (0 ≤ src < 100000); under it both gathers read the same rows.
  No finiteness of any input is used.

  The frames of the two kernel programs are the generated ones; the reference's frame is its generated run with the
  result dropped; the idealization rewrote nothing, so its conjunct is trivial.
-/
import proofs.«425123_j84121229460234_1_alg».proof.Defs
import proofs.«425123_j84121229460234_1_alg».proof.Proof.Gen.Kernel
import proofs.«425123_j84121229460234_1_alg».proof.Proof.Gen.Kernel.Skeleton
import proofs.«425123_j84121229460234_1_alg».proof.Proof.Gen.Kernel.Launch
import proofs.«425123_j84121229460234_1_alg».proof.Proof.Gen.Kernel.Points
import proofs.«425123_j84121229460234_1_alg».proof.Proof.Gen.Kernel.Frame
import proofs.«425123_j84121229460234_1_alg».proof.Proof.Gen.KernelIdeal
import proofs.«425123_j84121229460234_1_alg».proof.Proof.Gen.KernelIdeal.Skeleton
import proofs.«425123_j84121229460234_1_alg».proof.Proof.Gen.KernelIdeal.Launch
import proofs.«425123_j84121229460234_1_alg».proof.Proof.Gen.KernelIdeal.Points
import proofs.«425123_j84121229460234_1_alg».proof.Proof.Gen.KernelIdeal.Frame
import proofs.«425123_j84121229460234_1_alg».proof.Proof.Gen.ReferenceIdeal
import proofs.«425123_j84121229460234_1_alg».proof.Proof.Gen.ReferenceIdeal.Run
import proofs.«425123_j84121229460234_1_alg».proof.Proof.Gen.ReferenceIdeal.Read
import proofs.«425123_j84121229460234_1_alg».proof.Proof.Gen.Pre_finite_inputs
import proofs.«425123_j84121229460234_1_alg».proof.Proof.KernelRun
import proofs.«425123_j84121229460234_1_alg».proof.Proof.KernelValue
import proofs.«425123_j84121229460234_1_alg».proof.Proof.RefValue
import proofs.«425123_j84121229460234_1_alg».proof.Proof.SrcRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the thirteen arguments, with every source index in the table, both programs end
    with the network function of the arguments in their result buffers. -/
theorem algebraic : Cert.algebraic_KernelIdeal_ReferenceIdeal := by
  intro m ρ m' ρ' hpre hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KernelValue.kernel_value m ρ c (Cert.SrcRange.src_lt m hpre c)), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v60_eq, h0, h1, h2, h3, h4, h5, h6, h7, h8, h9, h10, h11, h12]
    exact Cert.ReferenceIdeal.RefValue.ref_value _ _ _ _ _ _ _ _ _ _ _ _ _ (Cert.SrcRange.src_lt m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
